-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S_ : Shape := ⟨0, ![]⟩
abbrev S1x3200000 : Shape := ⟨2, ![1, 3200000]⟩
abbrev S3200000 : Shape := ⟨1, ![3200000]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg1 : IVec S2x3200000 32) (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : IVec S1x3200000 32 := (extractStridedSlice S1x3200000 ![0, 0] · slices_S2x3200000_S1x3200000_0_0) main_arg1
  let main_v25 : IVec S3200000 32 := shapeCast S3200000 main_v24 shapeCasts_S1x3200000_S3200000
  let main_c_8 : IVec S_ 32 := constantI S_ 32 0#32
  let main_v26 : IVec S3200000 32 := broadcastInDim S3200000 ![] bcast_S_S3200000 main_c_8
  let main_v27 : IVec S3200000 1 := cmpi .sge main_v25 main_v26
  let main_v28 : IVec S1x3200000 32 := (extractStridedSlice S1x3200000 ![0, 0] · slices_S2x3200000_S1x3200000_0_0) main_arg1
  let main_v29 : IVec S3200000 32 := shapeCast S3200000 main_v28 shapeCasts_S1x3200000_S3200000
  let main_c_9 : IVec S_ 32 := constantI S_ 32 100000#32
  let main_v30 : IVec S3200000 32 := broadcastInDim S3200000 ![] bcast_S_S3200000 main_c_9
  let main_v31 : IVec S3200000 1 := cmpi .slt main_v29 main_v30
  let main_v32 : IVec S3200000 1 := andi main_v27 main_v31
  let main_c_10 : IVec S_ 1 := constantI S_ 1 1#1
  let main_v33 : IVec S_ 1 := (fun x v => Host.reduce IntOp.andi x v reducesTo_S3200000_S_d0 h_S_) main_v32 main_c_10
  let main_v34 : IVec S_ 1 := andi main_v23 main_v33
  main_v34

def fn {F : FTy → Type} [FloatOps F] (main_arg0 : FVec F S100000x1 .f32) (main_arg1 : IVec S2x3200000 32) (main_arg2 : FVec F S1x16 .f32) (main_arg3 : FVec F S16 .f32) (main_arg4 : FVec F S16x2 .f32) (main_arg5 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg1 main_arg5 main_v13 main_v16
-- ==== Kernel.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100x1000 : Shape := ⟨2, ![100, 1000]⟩
abbrev S1 : Shape := ⟨1, ![1]⟩
abbrev S1x1 : Shape := ⟨2, ![1, 1]⟩
abbrev S100000x2 : Shape := ⟨2, ![100000, 2]⟩
abbrev S5000x1 : Shape := ⟨2, ![5000, 1]⟩
abbrev S5000x2 : Shape := ⟨2, ![5000, 2]⟩
abbrev S5000x16 : Shape := ⟨2, ![5000, 16]⟩
abbrev S3300000x2 : Shape := ⟨2, ![3300000, 2]⟩
abbrev S1x2 : Shape := ⟨2, ![1, 2]⟩

abbrev nBuf : Space → Nat
  | .hbm => 84
  | .vmem => 20
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S100x1000, .f32⟩
  | .hbm, ⟨21, _⟩ => ⟨S100x1000, .f32⟩
  | .hbm, ⟨22, _⟩ => ⟨S100x1000, .f32⟩
  | .hbm, ⟨23, _⟩ => ⟨S100x1000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S1, .i32⟩
  | .hbm, ⟨35, _⟩ => ⟨S_, .i32⟩
  | .hbm, ⟨36, _⟩ => ⟨S3300000x1, .i32⟩
  | .hbm, ⟨37, _⟩ => ⟨S3300000x1, .i1⟩
  | .hbm, ⟨38, _⟩ => ⟨S1x1, .i32⟩
  | .hbm, ⟨39, _⟩ => ⟨S3300000x1, .i32⟩
  | .hbm, ⟨40, _⟩ => ⟨S3300000x1, .i1⟩
  | .hbm, ⟨41, _⟩ => ⟨S3300000x1, .i1⟩
  | .hbm, ⟨42, _⟩ => ⟨S_, .i1⟩
  | .hbm, ⟨43, _⟩ => ⟨S3300000, .i1⟩
  | .hbm, ⟨44, _⟩ => ⟨S3300000, .f32⟩
  | .hbm, ⟨45, _⟩ => ⟨S_, .f32⟩
  | .hbm, ⟨46, _⟩ => ⟨S3300000, .f32⟩
  | .hbm, ⟨47, _⟩ => ⟨S3300000, .f32⟩
  | .hbm, ⟨48, _⟩ => ⟨S_, .f32⟩
  | .hbm, ⟨49, _⟩ => ⟨S100000, .f32⟩
  | .hbm, ⟨50, _⟩ => ⟨S3300000x1, .i32⟩
  | .hbm, ⟨51, _⟩ => ⟨S100000, .f32⟩
  | .hbm, ⟨52, _⟩ => ⟨S100000x1, .f32⟩
  | .hbm, ⟨53, _⟩ => ⟨S100000x1, .f32⟩
  | .hbm, ⟨54, _⟩ => ⟨S100000x2, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S1, .i32⟩
  | .hbm, ⟨64, _⟩ => ⟨S_, .i32⟩
  | .hbm, ⟨65, _⟩ => ⟨S3300000x1, .i32⟩
  | .hbm, ⟨66, _⟩ => ⟨S3300000x1, .i1⟩
  | .hbm, ⟨67, _⟩ => ⟨S1x1, .i32⟩
  | .hbm, ⟨68, _⟩ => ⟨S3300000x1, .i32⟩
  | .hbm, ⟨69, _⟩ => ⟨S3300000x1, .i1⟩
  | .hbm, ⟨70, _⟩ => ⟨S3300000x1, .i1⟩
  | .hbm, ⟨71, _⟩ => ⟨S_, .i1⟩
  | .hbm, ⟨72, _⟩ => ⟨S3300000, .i1⟩
  | .hbm, ⟨73, _⟩ => ⟨S3300000x2, .f32⟩
  | .hbm, ⟨74, _⟩ => ⟨S3300000x2, .i1⟩
  | .hbm, ⟨75, _⟩ => ⟨S_, .f32⟩
  | .hbm, ⟨76, _⟩ => ⟨S3300000x2, .f32⟩
  | .hbm, ⟨77, _⟩ => ⟨S3300000x2, .f32⟩
  | .hbm, ⟨78, _⟩ => ⟨S_, .f32⟩
  | .hbm, ⟨79, _⟩ => ⟨S100000x2, .f32⟩
  | .hbm, ⟨80, _⟩ => ⟨S3300000x1, .i32⟩
  | .hbm, ⟨81, _⟩ => ⟨S100000x2, .f32⟩
  | .hbm, ⟨82, _⟩ => ⟨S100000x1, .f32⟩
  | .hbm, ⟨83, _⟩ => ⟨S100000x2, .f32⟩
  | .local _ .vmem, ⟨0, _⟩ => ⟨S100x1000, .f32⟩
  | .local _ .vmem, ⟨1, _⟩ => ⟨S100x1000, .f32⟩
  | .local _ .vmem, ⟨2, _⟩ => ⟨S100x1000, .f32⟩
  | .local _ .vmem, ⟨3, _⟩ => ⟨S100x1000, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S1x16, .f32⟩
  | .local _ .vmem, ⟨9, _⟩ => ⟨S16, .f32⟩
  | .local _ .vmem, ⟨10, _⟩ => ⟨S16x2, .f32⟩
  | .local _ .vmem, ⟨11, _⟩ => ⟨S5000x2, .f32⟩
  | .local _ .vmem, ⟨12, _⟩ => ⟨S5000x2, .f32⟩
  | .local _ .vmem, ⟨13, _⟩ => ⟨S5000x2, .f32⟩
  | .local _ .vmem, ⟨14, _⟩ => ⟨S5000x2, .f32⟩
  | .local _ .vmem, ⟨15, _⟩ => ⟨S5000x1, .f32⟩
  | .local _ .vmem, ⟨16, _⟩ => ⟨S5000x1, .f32⟩
  | .local _ .vmem, ⟨17, _⟩ => ⟨S2, .f32⟩
  | .local _ .vmem, ⟨18, _⟩ => ⟨S5000x2, .f32⟩
  | .local _ .vmem, ⟨19, _⟩ => ⟨S5000x2, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v17 : Ref sig .tc := ⟨.hbm, 47, rfl⟩
abbrev main_cst_1 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v24 : Ref sig .tc := ⟨.hbm, 77, rfl⟩
abbrev main_cst_2 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S100x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S100x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000x1_S100000 : S100000x1.ShapeCasts S100000
  shapeCasts_S100000_S100x1000 : S100000.ShapeCasts S100x1000
  inb_S100x1000_S100x1000_0_0 : ∀ a, (![0, 0] : Fin 2 → Nat) a + S100x1000.size a ≤ S100x1000.size a
  h_S100x1000 : 0 < S100x1000.numel
  shapeCasts_S100x1000_S100x1000 : S100x1000.ShapeCasts S100x1000
  shapeCasts_S100x1000_S100000 : S100x1000.ShapeCasts S100000
  bcast_S_S3300000x1 : S_.BroadcastsInDim S3300000x1 (![] : Fin 0 → Fin S3300000x1.rank)
  bcast_S1_S1x1_1 : S1.BroadcastsInDim S1x1 (![1] : Fin 1 → Fin S1x1.rank)
  bcast_S1x1_S3300000x1_0_1 : S1x1.BroadcastsInDim S3300000x1 (![0, 1] : Fin 2 → Fin S3300000x1.rank)
  reducesTo_S3300000x1_S3300000_d1 : S3300000x1.ReducesTo [1] S3300000
  h_S_ : 0 < S_.numel
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x16_S1x16_0_0 : ∀ a, (![0, 0] : Fin 2 → Nat) a + S1x16.size a ≤ S1x16.size a
  h_S1x16 : 0 < S1x16.numel
  inb_S16_S16_0 : ∀ a, (![0] : Fin 1 → Nat) a + S16.size a ≤ S16.size a
  h_S16 : 0 < S16.numel
  broadcasts_S5000x1_S5000x16 : S5000x1.Broadcasts S5000x16
  shapeCasts_S1x16_S1x16 : S1x16.ShapeCasts S1x16
  broadcasts_S1x16_S5000x16 : S1x16.Broadcasts S5000x16
  shapeCasts_S16_S1x16 : S16.ShapeCasts S1x16
  bitsLt_bf16_f32 : FTy.bits .bf16 < FTy.bits .f32
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S3300000_S3300000x2_0 : S3300000.BroadcastsInDim S3300000x2 (![0] : Fin 1 → Fin S3300000x2.rank)
  bcast_S_S3300000x2 : S_.BroadcastsInDim S3300000x2 (![] : Fin 0 → Fin S3300000x2.rank)
  bcast_S_S100000x2 : S_.BroadcastsInDim S100000x2 (![] : Fin 0 → Fin S100000x2.rank)
  shapeCasts_S5000x2_S5000x2 : S5000x2.ShapeCasts S5000x2
  broadcasts_S5000x1_S5000x2 : S5000x1.Broadcasts S5000x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x1000.size a ≤ S100x1000.size a
  hwx0_0 : ∀ i : grid0.Coords, EltTy.bits .f32 = 32 ∨ (Rect.block (s := S100x1000) S100x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x1000.size a ≤ S100x1000.size a
  hwx0_1 : ∀ i : grid0.Coords, EltTy.bits .f32 = 32 ∨ (Rect.block (s := S100x1000) S100x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x1000.size a ≤ S100x1000.size a
  hwx0_2 : ∀ i : grid0.Coords, EltTy.bits .f32 = 32 ∨ (Rect.block (s := S100x1000) S100x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x1000.size a ≤ S100x1000.size a
  hwx0_3 : ∀ i : grid0.Coords, EltTy.bits .f32 = 32 ∨ (Rect.block (s := S100x1000) S100x1000.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .f32 = 32 ∨ (Rect.block (s := S100000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x2.size a ≤ S16x2.size a
  hwx1_4 : ∀ i : grid1.Coords, EltTy.bits .f32 = 32 ∨ (Rect.block (s := S16x2) S16x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S100000x2.size a
  hwx1_5 : ∀ i : grid1.Coords, EltTy.bits .f32 = 32 ∨ (Rect.block (s := S100000x2) S5000x2.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x2.size a ≤ S100000x2.size a
  hwx2_0 : ∀ i : grid2.Coords, EltTy.bits .f32 = 32 ∨ (Rect.block (s := S100000x2) S5000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2.size a ≤ S2.size a
  hwx2_2 : ∀ i : grid2.Coords, EltTy.bits .f32 = 32 ∨ (Rect.block (s := S2) S2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_v12) S100x1000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S100x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S100x1000.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S100x1000.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 129
  | .vmem => 0
  | .smem => 0
  | _ => 0

abbrev hbmTy0_0 (i : Nat) : BufTy := match i % 128 with
  | 0 => ⟨S100000x1, .f32⟩
  | 1 => ⟨S2x3200000, .i32⟩
  | 2 => ⟨S1x16, .f32⟩
  | 3 => ⟨S16, .f32⟩
  | 4 => ⟨S16x2, .f32⟩
  | 5 => ⟨S2, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x2, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x2, .f32⟩
  | 119 => ⟨S3300000x1, .f32⟩
  | 120 => ⟨S3300000x2, .f32⟩
  | 121 => ⟨S3300000x2, .f32⟩
  | 122 => ⟨S_, .f32⟩
  | 123 => ⟨S100000x2, .f32⟩
  | 124 => ⟨S3300000x1, .i32⟩
  | 125 => ⟨S100000x2, .f32⟩
  | 126 => ⟨S1x2, .f32⟩
  | 127 => ⟨S100000x2, .f32⟩
  | _ => ⟨S100000x1, .f32⟩

abbrev hbmTy0_1 (i : Nat) : BufTy := match i % 128 with
  | 0 => ⟨S100000x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x1_S1x16_S100000x16_1_0_0_1_n_n_wf : DotDims.WF S100000x1 S1x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KArrays.lean ====
/-
  The arrays the three launches read and write, each named at its literal type: entry functions into the extended
  reals, at a parameter valuation `V` (the buffer contents when the launch is entered).
-/
import proofs.«407811_j67078799229060_3_alg».proof.Proof.Gen.KernelIdeal.Frame
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-! ## The first launch -/
/-- The in-degrees, 100 × 1000. -/
abbrev kin12 (c : Dev nD) : S100x1000.Idx → EReal := V c main_v12
/-- The input column, 100 × 1000. -/
abbrev kin13 (c : Dev nD) : S100x1000.Idx → EReal := V c main_v13
/-- The degree-scale output after the launch. -/
abbrev kout0a (c : Dev nD) : S100x1000.Idx → EReal := (dat0 (F := Ideal) V c).arrAt 2 cfg0.N
/-- The pre-scaled input output after the launch. -/
abbrev kout0b (c : Dev nD) : S100x1000.Idx → EReal := (dat0 (F := Ideal) V c).arrAt 3 cfg0.N

/-! ## The second launch -/
/-- The summed messages, a column. -/
abbrev kin21 (c : Dev nD) : S100000x1.Idx → EReal := V c main_v21
/-- The degree scale, a column. -/
abbrev kin22 (c : Dev nD) : S100000x1.Idx → EReal := V c main_v22
/-- The first layer's weight row. -/
abbrev kinW1 (c : Dev nD) : S1x16.Idx → EReal := V c main_arg2
/-- The first layer's bias. -/
abbrev kinB1 (c : Dev nD) : S16.Idx → EReal := V c main_arg3
/-- The second layer's weight matrix. -/
abbrev kinW2 (c : Dev nD) : S16x2.Idx → EReal := V c main_arg4
/-- The second launch's output after the launch. -/
abbrev kout1 (c : Dev nD) : S100000x2.Idx → EReal := (dat1 (F := Ideal) V c).arrAt 5 cfg1.N

/-! ## The third launch -/
/-- The aggregated rows. -/
abbrev kin27 (c : Dev nD) : S100000x2.Idx → EReal := V c main_v27
/-- The degree scale, a column. -/
abbrev kin28 (c : Dev nD) : S100000x1.Idx → EReal := V c main_v28
/-- The second layer's bias. -/
abbrev kinB2 (c : Dev nD) : S2.Idx → EReal := V c main_arg5
/-- The third launch's output after the launch. -/
abbrev kout2 (c : Dev nD) : S100000x2.Idx → EReal := (dat2 (F := Ideal) V c).arrAt 3 cfg2.N

end Cert.KernelIdeal.Hand

end
-- ==== Proof.KTerms.lean ====
/-
  The kernel program's host arithmetic between its three launches, as pure functions of arrays.

  The edge list `ei` has a source row and a target row; each is followed by the 100000 self-loops (`srcT`, `dstT`).
  `sumAt dst u` sums the per-edge values `u` onto the nodes the target words name (a word naming no node is dropped),
  `sumAtR` does it for rows of two; the in-degree `degT` is `sumAt` of ones. `takeV tbl src` reads a table at the source
  words with a negative word counted from the end, and FILLS with the not-a-number word where the wrapped word still
  names no node (`maskA`); `takeR` is the same on rows of two.
-/
import proofs.«407811_j67078799229060_3_alg».proof.KernelIdeal
import proofs.«407811_j67078799229060_3_alg».proof.Proof.Gen.KernelIdeal

noncomputable section

namespace Cert.KernelIdeal.Hand

open Cert.KernelIdeal Cert.KernelIdeal.Gen Idealize.ShloMosaic

variable {F : FTy → Type} [FloatOps F]

/-- The source words: the edge list's row 0, then the self-loops' `0, 1, …, 99999`. -/
def srcT (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0

/-- The target words: the edge list's row 1, then the self-loops. -/
def dstT (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- A list of words as the column of start indices a gather or scatter takes. -/
def colA (a : IVec S3300000 32) : IVec S3300000x1 32 := broadcastInDim S3300000x1 ![0] bcast_S3300000_S3300000x1_0 a

/-- Per-edge values summed onto the nodes their target words name. -/
def sumAt (dst : IVec S3300000 32) (u : FVec F S3300000 .f32) : FVec F S100000 .f32 :=
  Host.scatterAdd scatter_S100000_S3300000x1_S3300000_n_0_0_1 (broadcastInDim S100000 ![] bcast_S_S100000 (constant S_ .f32 0x00000000#32)) (colA dst) u

/-- Per-edge rows of two summed onto the nodes their target words name. -/
def sumAtR (dst : IVec S3300000 32) (u : FVec F S3300000x2 .f32) : FVec F S100000x2 .f32 :=
  Host.scatterAdd scatter_S100000x2_S3300000x1_S3300000x2_1_0_0_1 (broadcastInDim S100000x2 ![] bcast_S_S100000x2 (constant S_ .f32 0x00000000#32)) (colA dst) u

/-- The in-degree with self-loops: one per edge landing on the node. -/
def degT (ei : IVec S2x3200000 32) : FVec F S100000 .f32 :=
  sumAt (dstT ei) (broadcastInDim S3300000 ![] bcast_S_S3300000 (constant S_ .f32 0x3F800000#32))

/-- A negative word counted from the end of the table. -/
def wrapA (src : IVec S3300000 32) : IVec S3300000 32 :=
  select (cmpi .slt src (broadcastInDim S3300000 ![] bcast_S_S3300000 (constantI S_ 32 0#32))) (addi src (broadcastInDim S3300000 ![] bcast_S_S3300000 (constantI S_ 32 100000#32))) src

/-- Whether the wrapped word names a node: `0 ≤ word ≤ 99999`. -/
def maskA (src : IVec S3300000 32) : IVec S3300000 1 :=
  (fun x v => Host.reduce IntOp.andi x v reducesTo_S3300000x1_S3300000_d1 h_S_)
    (andi (cmpi .sge (colA (wrapA src)) (broadcastInDim S3300000x1 ![] bcast_S_S3300000x1 (constantI S_ 32 0#32)))
      (cmpi .sle (colA (wrapA src)) (broadcastInDim S3300000x1 ![0, 1] bcast_S1x1_S3300000x1_0_1 (broadcastInDim S1x1 ![1] bcast_S1_S1x1_1 (constantI S1 32 99999#32)))))
    (constantI S_ 1 1#1)

/-- The table read at the source words, filled where a word names no node. -/
def takeV (tbl : FVec F S100000 .f32) (src : IVec S3300000 32) : FVec F S3300000 .f32 :=
  select (maskA src) (Host.gather gather_S100000_S3300000x1_S3300000_n_0_n_n_0_1_1 tbl (colA (wrapA src)))
    (broadcastInDim S3300000 ![] bcast_S_S3300000 (constant S_ .f32 0x7FC00000#32))

/-- The table of rows of two read at the source words, filled where a word names no node. -/
def takeR (tbl : FVec F S100000x2 .f32) (src : IVec S3300000 32) : FVec F S3300000x2 .f32 :=
  select (broadcastInDim S3300000x2 ![0] bcast_S3300000_S3300000x2_0 (maskA src))
    (Host.gather gather_S100000x2_S3300000x1_S3300000x2_1_0_n_n_0_1_12 tbl (colA (wrapA src)))
    (broadcastInDim S3300000x2 ![] bcast_S_S3300000x2 (constant S_ .f32 0x7FC00000#32))

end Cert.KernelIdeal.Hand

end
-- ==== Proof.GcnIndex.lean ====
/-
  Node words, edge sets and the degree scale: the vocabulary both programs' values are stated in.

  An edge list entry is a 32-bit word. A gather reads the table at the word counted from the end when it is negative,
  then clamped into the table; a scatter-add lands an update on node `n` exactly when the word, read signed, IS `n`
  (anything else is dropped). `dinvE d` is the degree scale `1/√d` for a positive degree and `0` otherwise.
-/
import Idealize.ShloMosaic.PureOps.Ideal
import Idealize.ShloMosaic.Lib.ValueIdx

noncomputable section

namespace Cert.Gcn

open Idealize.ShloMosaic Idealize.ShloMosaic.ValueIdx

/-- A negative node word counts from the end of the table of 100000 nodes. -/
def wrapW (w : BitVec 32) : BitVec 32 := Scalar.select (IntOp.cmpi .slt w 0#32) (IntOp.addi w 100000#32) w

/-- The node a gather reads for the word `w`: the wrapped word read signed and clamped into `[0, 99999]`. -/
def nodeOf (w : BitVec 32) : Fin 100000 := ⟨min (wrapW w).toInt.toNat 99999, by omega⟩

/-- The word names a node. -/
def InRange (w : BitVec 32) : Prop := 0 ≤ w.toInt ∧ w.toInt < 100000

/-- The node edge `e`'s word in the list `a` makes a gather read. -/
def srcN (a : (⟨1, ![3300000]⟩ : Shape).Idx → BitVec 32) (e : Fin 3300000) : Fin 100000 := nodeOf (a (ix1 e))

/-- The edges whose word in the list `a`, read signed, is node `n`: the updates a scatter-add lands on `n`. -/
def Jof (a : (⟨1, ![3300000]⟩ : Shape).Idx → BitVec 32) (n : Fin 100000) : Finset (Fin 3300000) :=
  Finset.univ.filter fun e => (a (ix1 e)).toInt = (n.val : ℤ)

/-- A word in range is not wrapped. -/
theorem wrapW_of_inRange {w : BitVec 32} (h : InRange w) : wrapW w = w := by
  have hs : w.slt 0#32 = false := by
    have h0 : ¬ w.toInt < (0#32).toInt := by
      rw [BitVec.toInt_zero]
      exact not_lt.mpr h.1
    simpa only [BitVec.slt, decide_eq_false_iff_not] using h0
  have hc : IntOp.cmpi .slt w 0#32 = 0#1 := by
    show BitVec.ofBool (w.slt 0#32) = 0#1
    rw [hs]
    rfl
  rw [wrapW, hc, select_zero]

/-- A word that is node `n` read signed makes a gather read node `n`. -/
theorem nodeOf_of_toInt {w : BitVec 32} {n : Fin 100000} (h : w.toInt = (n.val : ℤ)) : nodeOf w = n := by
  have hr : InRange w := by
    have hn := n.isLt
    constructor
    · rw [h]; exact Int.natCast_nonneg _
    · rw [h]; exact_mod_cast hn
  apply Fin.ext
  show min (wrapW w).toInt.toNat 99999 = n.val
  rw [wrapW_of_inRange hr, h, Int.toNat_natCast]
  have hn := n.isLt
  omega

/-- A word in range reads the node it names. -/
theorem nodeOf_val_of_inRange {w : BitVec 32} (h : InRange w) : ((nodeOf w).val : ℤ) = w.toInt := by
  show ((min (wrapW w).toInt.toNat 99999 : ℕ) : ℤ) = w.toInt
  rw [wrapW_of_inRange h]
  obtain ⟨h0, h1⟩ := h
  omega

/-- An edge that lands on `n` has `n` as the node its gather reads. -/
theorem srcN_of_mem_Jof {a : (⟨1, ![3300000]⟩ : Shape).Idx → BitVec 32} {n : Fin 100000} {e : Fin 3300000}
    (h : e ∈ Jof a n) : srcN a e = n :=
  nodeOf_of_toInt (Finset.mem_filter.mp h).2

/-- The degree scale: `1/√d` where the degree is positive, else `0`. -/
def dinvE (d : EReal) : EReal := Scalar.select (Ideal.cmp .ogt d 0) (Ideal.rsqrt d) 0

/-- The degree scale is a real number whatever the degree: `1/√d` of a positive real, `0` at `+∞` and wherever the
    comparison fails. -/
theorem dinvE_real (d : EReal) : ∃ r : ℝ, dinvE d = (r : EReal) := by
  unfold dinvE
  by_cases hp : (0 : EReal) < d
  · have hc : Ideal.cmp .ogt d 0 = 1#1 := by
      show BitVec.ofBool (decide ((0 : EReal) < d)) = 1#1
      rw [decide_eq_true hp]
      rfl
    rw [hc, select_one]
    induction d using EReal.rec with
    | bot => exact absurd hp (not_lt.mpr bot_le)
    | top => exact ⟨0, by rw [Ideal.rsqrt_top, EReal.coe_zero]⟩
    | coe r =>
      have hr : 0 < r := by exact_mod_cast hp
      refine ⟨(Real.sqrt r)⁻¹, ?_⟩
      rw [Ideal.rsqrt_coe, if_neg (not_lt.mpr hr.le), if_neg hr.ne']
  · have hc : Ideal.cmp .ogt d 0 = 0#1 := by
      show BitVec.ofBool (decide ((0 : EReal) < d)) = 0#1
      rw [decide_eq_false hp]
      rfl
    rw [hc, select_zero]
    exact ⟨0, by rw [EReal.coe_zero]⟩

end Cert.Gcn

end
-- ==== Proof.LibIndexedSum.lean ====
/-
  General lemmas: the host's row gather, its accumulating row scatter and a two-piece concatenate, read at an index.

  The shapes are the ones jnp's `table[idx]`, `segment_sum` / `.at[idx].add` and `concatenate` of two flat arrays lower
  to: a table of `N` rows (flat, or `N × C`), a column `E × 1` of start-index words, one gathered row or one update row
  per index word. A gather reads row `min (word read signed, negatives as 0) (N − 1)`: the start is clamped. A
  scatter-add lands update row `e` on table row `n` exactly when the word read signed is `n` (no clamp: a word outside
  `[0, N)` lands nowhere), so at the ideal instance the result's row `n` is the operand's row plus the sum of the update
  rows whose word is `n`. Stated for every `N C E`, under the dimension numbers as printed (each hypothesis is closed by
  `rfl` at a printed record).
-/
import Idealize.ShloMosaic.PureOps.Ideal
import Idealize.ShloMosaic.PureOps.Contract
import Idealize.ShloMosaic.Lib.ValueIdx
import Idealize.ShloMosaic.Lib.StableHlo.Predicate
import Idealize.ShloMosaic.Lib.Pipeline.Value

noncomputable section

open scoped BigOperators

namespace Cert.Lib.IndexedSum

open Idealize.ShloMosaic Idealize.ShloMosaic.ValueIdx

variable {N C E w : Nat}

/-- The rows of a column of index words whose word, read signed, is `n`. -/
def rowsAt (idx : IVec ⟨2, ![E, 1]⟩ w) (n : Nat) : Finset (Fin E) :=
  Finset.univ.filter fun e => (idx (ix2 e (0 : Fin 1))).toInt = (n : ℤ)

/-- THE ROW GATHER, flat table: result position `e` reads the table at its word, signed and clamped. -/
theorem gather_vec_apply {α : Type} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e) = x (ix1 ⟨min (idx (ix2 e (0 : Fin 1))).toInt.toNat (N - 1), by omega⟩) := by
  obtain ⟨od, cd, ob, sib, sim, iv, ss, wf⟩ := d
  simp only at hcoll hob hsim hivd
  subst hcoll hob hsim hivd
  -- the operand's one axis is collapsed, so the result has no offset axis
  have hod : od = [] := by
    have hlen := GatherDims.offset_length ⟨od, [0], [], sib, [0], 1, ss, wf⟩
    have h0 : (GatherDims.sKept ⟨od, [0], [], sib, [0], 1, ss, wf⟩).length = 0 := by
      simp [GatherDims.sKept, Shape.kept]
    exact List.length_eq_zero_iff.1 (hlen.trans h0)
  subst hod
  have hss0 : ss 0 = 1 :=
    GatherDims.slice_collapsed ⟨[], [0], [], sib, [0], 1, ss, wf⟩ 0 (List.mem_singleton.mpr rfl)
  unfold Host.gather
  congr 1
  funext a
  obtain rfl : a = 0 := Subsingleton.elim _ _
  refine Fin.ext ?_
  show GatherDims.start ⟨[], [0], [], sib, [0], 1, ss, wf⟩ (ix1 e) idx 0
      + GatherDims.batchCoord ⟨[], [0], [], sib, [0], 1, ss, wf⟩ (ix1 e) 0
      + GatherDims.offCoord ⟨[], [0], [], sib, [0], 1, ss, wf⟩ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : GatherDims.siIdx ⟨[], [0], [], sib, [0], 1, ss, wf⟩ (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  show min _ (N - ss 0) = min _ (N - 1)
  rw [hss0]

/-- THE ROW GATHER, table of rows: result `(e, f)` reads column `f` of the row its word names, signed and clamped. -/
theorem gather_rows_apply {α : Type} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (f : Fin C) (hN : 0 < N) :
    Host.gather d x idx (ix2 e f) = x (ix2 ⟨min (idx (ix2 e (0 : Fin 1))).toInt.toNat (N - 1), by omega⟩ f) := by
  obtain ⟨od, cd, ob, sib, sim, iv, ss, wf⟩ := d
  simp only at hoff hcoll hob hsim hivd
  subst hoff hcoll hob hsim hivd
  have hss0 : ss 0 = 1 :=
    GatherDims.slice_collapsed ⟨[1], [0], [], sib, [0], 1, ss, wf⟩ 0 (List.mem_singleton.mpr rfl)
  unfold Host.gather
  congr 1
  funext a
  refine Fin.ext ?_
  revert a
  refine Fin.forall_fin_two.2 ⟨?_, ?_⟩
  · show GatherDims.start ⟨[1], [0], [], sib, [0], 1, ss, wf⟩ (ix2 e f) idx 0
        + GatherDims.batchCoord ⟨[1], [0], [], sib, [0], 1, ss, wf⟩ (ix2 e f) 0
        + GatherDims.offCoord ⟨[1], [0], [], sib, [0], 1, ss, wf⟩ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx ⟨[1], [0], [], sib, [0], 1, ss, wf⟩ (ix2 e f)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    show min _ (N - ss 0) = min _ (N - 1)
    rw [hss0]
  · show GatherDims.start ⟨[1], [0], [], sib, [0], 1, ss, wf⟩ (ix2 e f) idx 1
        + GatherDims.batchCoord ⟨[1], [0], [], sib, [0], 1, ss, wf⟩ (ix2 e f) 1
        + GatherDims.offCoord ⟨[1], [0], [], sib, [0], 1, ss, wf⟩ (ix2 e f) 1 = f.val
    rw [GatherDims.batchCoord_eq_zero _ _ _ List.not_mem_nil]
    have hs1 : GatherDims.start ⟨[1], [0], [], sib, [0], 1, ss, wf⟩ (ix2 e f) idx 1 = 0 := by
      unfold GatherDims.start
      rw [dif_neg]
      simp
    have ho1 : GatherDims.offCoord ⟨[1], [0], [], sib, [0], 1, ss, wf⟩ (ix2 e f) 1 = f.val := by
      unfold GatherDims.offCoord
      split
      · rfl
      · rename_i h
        exact absurd (by simp [GatherDims.sKept, Shape.kept]) h
    rw [hs1, ho1]
    omega

/-- Flat scatter: update `j` lands on entry `n` exactly when its word, read signed, is `n`. -/
private theorem resultIdx_vec_iff (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (j : (⟨1, ![E]⟩ : Shape).Idx) (n : Fin N) :
    d.resultIdx? j idx = some (ix1 n) ↔ (idx (ix2 (j 0) (0 : Fin 1))).toInt = (n.val : ℤ) := by
  obtain ⟨uw, iw, sd, iv, wf⟩ := d
  simp only at hu hi hs hv
  subst hu hi hs hv
  have hst : ∀ a, ScatterDims.start ⟨[], [0], [0], 1, wf⟩ j idx a = (idx (ix2 (j 0) (0 : Fin 1))).toInt := by
    intro a
    obtain rfl : a = 0 := Subsingleton.elim _ _
    unfold ScatterDims.start
    rw [dif_pos (List.mem_singleton.mpr rfl)]
    congr 2
    funext b; refine Fin.ext ?_
    match b with
    | ⟨0, _⟩ => rfl
    | ⟨1, _⟩ => rfl
  have hwi : ∀ a, ScatterDims.window ⟨[], [0], [0], 1, wf⟩ j a = 0 := by
    intro a
    obtain rfl : a = 0 := Subsingleton.elim _ _
    unfold ScatterDims.window
    rw [dif_neg]
    simp [ScatterDims.sKept, Shape.kept]
  constructor
  · intro hsome
    unfold ScatterDims.resultIdx? at hsome
    split at hsome
    · rename_i h
      have h3 := congrArg Fin.val (congrFun (Option.some.inj hsome) 0)
      have h0 := (h 0).1
      rw [hst, hwi] at h0
      simp only [hst, hwi] at h3
      have h4 : ((idx (ix2 (j 0) (0 : Fin 1))).toInt + ((0 : Nat) : ℤ)).toNat = n.val := h3
      omega
    · exact absurd hsome (by simp)
  · intro hw
    have hn := n.isLt
    unfold ScatterDims.resultIdx?
    rw [dif_pos]
    · congr 1; funext a
      obtain rfl : a = 0 := Subsingleton.elim _ _
      refine Fin.ext ?_
      show (_ + _ : ℤ).toNat = n.val
      rw [hst, hwi]; omega
    · intro a
      obtain rfl : a = 0 := Subsingleton.elim _ _
      rw [hst, hwi]
      show _ ∧ _ < ((N : Nat) : ℤ)
      omega

/-- THE ACCUMULATING SCATTER, flat table, at the ideal instance: entry `n` is the operand's plus the sum of the
    updates whose word is `n`. -/
theorem scatterAdd_vec_apply {φ : FTy} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Host.scatterAdd (F := Ideal) (φ := φ) d x idx upd (ix1 n) = x (ix1 n) + ∑ e ∈ rowsAt idx n.val, upd (ix1 e) := by
  show x (ix1 n) + ∑ j ∈ Finset.univ.filter (fun j => d.resultIdx? j idx = some (ix1 n)), upd j = _
  congr 1
  symm
  refine Finset.sum_bij (fun e _ => ix1 e) ?_ ?_ ?_ ?_
  · intro e he
    rw [Finset.mem_filter]
    refine ⟨Finset.mem_univ _, (resultIdx_vec_iff d hu hi hs hv idx (ix1 e) n).2 ?_⟩
    exact (Finset.mem_filter.1 he).2
  · intro a _ b _ hab
    exact congrFun hab 0
  · intro j hj
    exact ⟨j 0, Finset.mem_filter.2 ⟨Finset.mem_univ _,
      (resultIdx_vec_iff d hu hi hs hv idx j n).1 (Finset.mem_filter.1 hj).2⟩, (eq_ix1 j).symm⟩
  · intro e _; rfl

/-- Row scatter: update `j` lands on entry `(n, f)` exactly when its word, read signed, is `n` and its column is `f`. -/
private theorem resultIdx_rows_iff (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (j : (⟨2, ![E, C]⟩ : Shape).Idx) (n : Fin N) (f : Fin C) :
    d.resultIdx? j idx = some (ix2 n f) ↔ (idx (ix2 (j 0) (0 : Fin 1))).toInt = (n.val : ℤ) ∧ j 1 = f := by
  obtain ⟨uw, iw, sd, iv, wf⟩ := d
  simp only at hu hi hs hv
  subst hu hi hs hv
  have hst0 : ScatterDims.start ⟨[1], [0], [0], 1, wf⟩ j idx 0 = (idx (ix2 (j 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hst1 : ScatterDims.start ⟨[1], [0], [0], 1, wf⟩ j idx 1 = 0 := by
    unfold ScatterDims.start
    rw [dif_neg]
    simp
  have hwi0 : ScatterDims.window ⟨[1], [0], [0], 1, wf⟩ j 0 = 0 := by
    unfold ScatterDims.window
    rw [dif_neg]
    simp [ScatterDims.sKept, Shape.kept]
  have hwi1 : ScatterDims.window ⟨[1], [0], [0], 1, wf⟩ j 1 = (j 1).val := by
    unfold ScatterDims.window
    split
    · rfl
    · rename_i h
      exact absurd (by simp [ScatterDims.sKept, Shape.kept]) h
  constructor
  · intro hsome
    unfold ScatterDims.resultIdx? at hsome
    split at hsome
    · rename_i h
      have hfun := Option.some.inj hsome
      have h30 := congrArg Fin.val (congrFun hfun 0)
      have h31 := congrArg Fin.val (congrFun hfun 1)
      have h0 := (h 0).1
      rw [hst0, hwi0] at h0
      simp only [hst0, hwi0] at h30
      simp only [hst1, hwi1] at h31
      have h40 : ((idx (ix2 (j 0) (0 : Fin 1))).toInt + ((0 : Nat) : ℤ)).toNat = n.val := h30
      have h41 : ((0 : ℤ) + (((j 1).val : Nat) : ℤ)).toNat = f.val := h31
      refine ⟨by omega, Fin.ext ?_⟩
      omega
    · exact absurd hsome (by simp)
  · rintro ⟨hw, hf⟩
    have hn := n.isLt
    have hf' : (j 1).val = f.val := congrArg Fin.val hf
    have hfl := f.isLt
    unfold ScatterDims.resultIdx?
    rw [dif_pos]
    · congr 1; funext a
      refine Fin.ext ?_
      revert a
      refine Fin.forall_fin_two.2 ⟨?_, ?_⟩
      · show (_ + _ : ℤ).toNat = n.val
        rw [hst0, hwi0]; omega
      · simp only [hst1, hwi1]
        exact (by omega : (0 + (((j 1).val : ℕ) : ℤ)).toNat = f.val)
    · refine Fin.forall_fin_two.2 ⟨?_, ?_⟩
      · rw [hst0, hwi0]
        show _ ∧ _ < ((N : Nat) : ℤ)
        omega
      · rw [hst1, hwi1]
        show _ ∧ _ < ((C : Nat) : ℤ)
        omega

/-- THE ACCUMULATING SCATTER, table of rows: entry `(n, f)` is the operand's plus the sum over the update rows whose
    word is `n` of their column `f`. -/
theorem scatterAdd_rows_apply {φ : FTy} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Host.scatterAdd (F := Ideal) (φ := φ) d x idx upd (ix2 n f) = x (ix2 n f) + ∑ e ∈ rowsAt idx n.val, upd (ix2 e f) := by
  show x (ix2 n f) + ∑ j ∈ Finset.univ.filter (fun j => d.resultIdx? j idx = some (ix2 n f)), upd j = _
  congr 1
  symm
  refine Finset.sum_bij (fun e _ => ix2 e f) ?_ ?_ ?_ ?_
  · intro e he
    exact Finset.mem_filter.2 ⟨Finset.mem_univ _,
      (resultIdx_rows_iff d hu hi hs hv idx (ix2 e f) n f).2 ⟨(Finset.mem_filter.1 he).2, rfl⟩⟩
  · intro a _ b _ hab
    exact congrFun hab 0
  · intro j hj
    have hjj := (resultIdx_rows_iff d hu hi hs hv idx j n f).1 (Finset.mem_filter.1 hj).2
    refine ⟨j 0, Finset.mem_filter.2 ⟨Finset.mem_univ _, hjj.1⟩, ?_⟩
    rw [← hjj.2]
    exact (eq_ix2 j).symm
  · intro e _; rfl

/-- TWO FLAT ARRAYS JOINED: position `e` reads the first piece below its length and the second from there on. -/
theorem concat2_apply {α : Type} {A B T : Nat} (hT : T = A + B)
    (h : Shape.Concatenates [(⟨1, ![A]⟩ : Shape), ⟨1, ![B]⟩] ⟨1, ![T]⟩ 0)
    (a : (⟨1, ![A]⟩ : Shape).Idx → α) (b : (⟨1, ![B]⟩ : Shape).Idx → α) (e : Fin T) :
    concatenate ⟨1, ![T]⟩ 0 [⟨⟨1, ![A]⟩, a⟩, ⟨⟨1, ![B]⟩, b⟩] h (ix1 e)
      = if hA : e.val < A then a (ix1 ⟨e.val, hA⟩) else b (ix1 ⟨e.val - A, by omega⟩) := by
  by_cases hA : e.val < A
  · rw [dif_pos hA]
    exact concatenate_pair_apply_left (0 : Fin 1) a b h (ix1 e) rfl (ix1 ⟨e.val, hA⟩) (fun c => by
      obtain rfl : c = 0 := Subsingleton.elim _ _
      rfl)
  · rw [dif_neg hA]
    exact concatenate_pair_apply_right (0 : Fin 1) a b h (ix1 e) rfl rfl (ix1 ⟨e.val - A, by omega⟩)
      (fun c hc => absurd (Subsingleton.elim _ _) hc) (by show e.val - A + A = e.val; omega)

end Cert.Lib.IndexedSum

end
-- ==== Proof.KTake.lean ====
/-
  The takes and the scatter sums of KTerms read at an index, at the ideal instance.

  Where the source word names a node (`InRange`), the fill-mode take is the plain read of the table at that node: the
  wrapped word is the word, the mask bit is set, and the clamped gather reads the node itself. A scatter sum at node
  `n` is zero plus the sum of the updates of the edges whose target word is `n`. Every source word is in range once the
  edge list's source row is: the self-loops' words are `0 … 99999`.
-/
import proofs.«407811_j67078799229060_3_alg».proof.Proof.KTerms
import proofs.«407811_j67078799229060_3_alg».proof.Proof.GcnIndex
import proofs.«407811_j67078799229060_3_alg».proof.Proof.LibIndexedSum
import Idealize.ShloMosaic.PureOps.Ideal.Laws
import Idealize.ShloMosaic.PureOps.Reduce
import Idealize.ShloMosaic.Lib.ValueIdx
import Idealize.ShloMosaic.Lib.Pipeline.Value
import Idealize.ShloMosaic.Lib.StableHlo.Predicate

noncomputable section

open scoped BigOperators

namespace Cert.KernelIdeal.Hand

open Cert.KernelIdeal Cert.KernelIdeal.Gen Idealize.ShloMosaic Idealize.ShloMosaic.ValueIdx

/-- The column of start indices reads the list at its row. -/
private theorem colA_apply (a : IVec S3300000 32) (e : Fin 3300000) : colA a (ix2 e (0 : Fin 1)) = a (ix1 e) := by
  unfold colA
  exact broadcastInDim_apply _ bcast_S3300000_S3300000x1_0 a (ix2 e (0 : Fin 1)) (ix1 e) (fun b => match b with
    | ⟨0, _⟩ => by show e.val = if (3300000 : Nat) = 1 then 0 else e.val; rw [if_neg (by decide)])

/-- The rows of the column whose word is `n` are the edges whose word in the list is `n`. -/
private theorem rowsAt_colA (dst : IVec S3300000 32) (n : Fin 100000) :
    Cert.Lib.IndexedSum.rowsAt (colA dst) n.val = Cert.Gcn.Jof dst n := by
  ext e
  simp only [Cert.Lib.IndexedSum.rowsAt, Cert.Gcn.Jof, Finset.mem_filter, Finset.mem_univ, true_and, colA_apply]

/-- The splat of the zero word reads the extended real zero. -/
private theorem zero_S100000_apply (i : S100000.Idx) :
    broadcastInDim S100000 ![] bcast_S_S100000 (constant (F := Ideal) S_ .f32 0x00000000#32) i = (0 : EReal) := by
  rw [broadcastInDim_apply _ bcast_S_S100000 _ i ix0 (fun a => a.elim0), constant_apply, Ideal.ofBits_zero_f32]

/-- The splat of the zero word over rows of two reads the extended real zero. -/
private theorem zero_S100000x2_apply (i : S100000x2.Idx) :
    broadcastInDim S100000x2 ![] bcast_S_S100000x2 (constant (F := Ideal) S_ .f32 0x00000000#32) i = (0 : EReal) := by
  rw [broadcastInDim_apply _ bcast_S_S100000x2 _ i ix0 (fun a => a.elim0), constant_apply, Ideal.ofBits_zero_f32]

/-- The wrapped list reads the wrapped word. -/
private theorem wrapA_apply (src : IVec S3300000 32) (e : Fin 3300000) :
    wrapA src (ix1 e) = Cert.Gcn.wrapW (src (ix1 e)) := rfl

/-- A fold by `and` from the set bit over a set of set bits is the set bit. -/
private theorem fold_andi_ones {ι : Type} (S : Finset ι) (x : ι → BitVec 1) (hx : ∀ i ∈ S, x i = 1#1) :
    S.fold IntOp.andi 1#1 x = 1#1 := by
  induction S using Finset.cons_induction with
  | empty => rfl
  | cons a S ha ih =>
    rw [Finset.fold_cons, hx a (Finset.mem_cons_self a S), ih (fun i hi => hx i (Finset.mem_cons_of_mem hi))]
    rfl

/-- A word in range is at least the zero word, compared signed. -/
private theorem sge_zero_of_inRange {w : BitVec 32} (h : Cert.Gcn.InRange w) : IntOp.cmpi .sge w 0#32 = 1#1 := by
  show BitVec.ofBool ((0#32).sle w) = 1#1
  rw [StableHlo.Predicate.ofBool_eq_one_iff]
  simp only [BitVec.sle, decide_eq_true_eq]
  rw [BitVec.toInt_zero]
  exact h.1

/-- A word in range is at most the last node's word, compared signed. -/
private theorem sle_last_of_inRange {w : BitVec 32} (h : Cert.Gcn.InRange w) : IntOp.cmpi .sle w 99999#32 = 1#1 := by
  show BitVec.ofBool (w.sle 99999#32) = 1#1
  rw [StableHlo.Predicate.ofBool_eq_one_iff]
  simp only [BitVec.sle, decide_eq_true_eq]
  rw [show (99999#32 : BitVec 32).toInt = 99999 from StableHlo.Predicate.toInt_ofNat_small 99999 (by norm_num)]
  have := h.2
  omega

/-- The mask bit is set at an edge whose source word names a node. -/
private theorem maskA_apply (src : IVec S3300000 32) (e : Fin 3300000) (h : Cert.Gcn.InRange (src (ix1 e))) :
    maskA src (ix1 e) = 1#1 := by
  unfold maskA
  show Host.reduce IntOp.andi _ _ reducesTo_S3300000x1_S3300000_d1 h_S_ (ix1 e) = 1#1
  rw [Host.reduce_eq_fold]
  refine fold_andi_ones _ _ (fun i hi => ?_)
  have hd : reducesTo_S3300000x1_S3300000_d1.drop i = ix1 e := (Finset.mem_filter.1 hi).2
  -- the one index that drops to `e` is `(e, 0)`
  have h0 : i 0 = e := by
    refine Fin.ext ?_
    have h1 := Shape.ReducesTo.drop_apply_val_of_eq reducesTo_S3300000x1_S3300000_d1 i 0 0
    rw [hd] at h1
    exact h1.symm
  have h1 : i 1 = (0 : Fin 1) := Fin.ext (by
    have hlt : (i 1).val < 1 := (i 1).isLt
    show (i 1).val = 0
    omega)
  have hi2 : i = ix2 e (0 : Fin 1) := by
    rw [eq_ix2 i, h0, h1]
    rfl
  subst hi2
  have hw : colA (wrapA src) (ix2 e (0 : Fin 1)) = src (ix1 e) := by
    rw [colA_apply, wrapA_apply, Cert.Gcn.wrapW_of_inRange h]
  show IntOp.andi (IntOp.cmpi .sge (colA (wrapA src) (ix2 e (0 : Fin 1))) 0#32)
    (IntOp.cmpi .sle (colA (wrapA src) (ix2 e (0 : Fin 1))) 99999#32) = 1#1
  rw [hw, sge_zero_of_inRange h, sle_last_of_inRange h]
  rfl

/-- The flat take at an edge whose source word names a node. -/
theorem takeV_apply (tbl : FVec Ideal S100000 .f32) (src : IVec S3300000 32) (e : Fin 3300000)
    (h : Cert.Gcn.InRange (src (ix1 e))) :
    takeV (F := Ideal) tbl src (ix1 e) = tbl (ix1 (Cert.Gcn.nodeOf (src (ix1 e)))) := by
  unfold takeV
  rw [select_apply, maskA_apply src e h, select_one,
    Cert.Lib.IndexedSum.gather_vec_apply gather_S100000_S3300000x1_S3300000_n_0_n_n_0_1_1 rfl rfl rfl rfl tbl
      (colA (wrapA src)) e (by omega)]
  refine congrArg tbl (congrArg ix1 (Fin.ext ?_))
  show min (colA (wrapA src) (ix2 e (0 : Fin 1))).toInt.toNat (100000 - 1)
    = min (Cert.Gcn.wrapW (src (ix1 e))).toInt.toNat 99999
  rw [colA_apply, wrapA_apply]

/-- The take of rows of two at an edge whose source word names a node. -/
theorem takeR_apply (tbl : FVec Ideal S100000x2 .f32) (src : IVec S3300000 32) (e : Fin 3300000) (f : Fin 2)
    (h : Cert.Gcn.InRange (src (ix1 e))) :
    takeR (F := Ideal) tbl src (ix2 e f) = tbl (ix2 (Cert.Gcn.nodeOf (src (ix1 e))) f) := by
  unfold takeR
  have hm : broadcastInDim S3300000x2 ![0] bcast_S3300000_S3300000x2_0 (maskA src) (ix2 e f) = 1#1 := by
    rw [broadcastInDim_apply _ bcast_S3300000_S3300000x2_0 (maskA src) (ix2 e f) (ix1 e) (fun b => match b with
      | ⟨0, _⟩ => by show e.val = if (3300000 : Nat) = 1 then 0 else e.val; rw [if_neg (by decide)])]
    exact maskA_apply src e h
  rw [select_apply, hm, select_one,
    Cert.Lib.IndexedSum.gather_rows_apply gather_S100000x2_S3300000x1_S3300000x2_1_0_n_n_0_1_12 rfl rfl rfl rfl rfl tbl
      (colA (wrapA src)) e f (by omega)]
  refine congrArg tbl (congrArg (fun n => ix2 n f) (Fin.ext ?_))
  show min (colA (wrapA src) (ix2 e (0 : Fin 1))).toInt.toNat (100000 - 1)
    = min (Cert.Gcn.wrapW (src (ix1 e))).toInt.toNat 99999
  rw [colA_apply, wrapA_apply]

/-- A scatter sum at a node. -/
theorem sumAt_apply (dst : IVec S3300000 32) (u : FVec Ideal S3300000 .f32) (n : Fin 100000) :
    sumAt (F := Ideal) dst u (ix1 n) = 0 + ∑ e ∈ Cert.Gcn.Jof dst n, (u (ix1 e) : EReal) := by
  unfold sumAt
  rw [Cert.Lib.IndexedSum.scatterAdd_vec_apply (φ := .f32) scatter_S100000_S3300000x1_S3300000_n_0_0_1 rfl rfl rfl rfl _
    (colA dst) u n, rowsAt_colA, zero_S100000_apply]

/-- A scatter sum of rows of two at a node and class. -/
theorem sumAtR_apply (dst : IVec S3300000 32) (u : FVec Ideal S3300000x2 .f32) (n : Fin 100000) (f : Fin 2) :
    sumAtR (F := Ideal) dst u (ix2 n f) = 0 + ∑ e ∈ Cert.Gcn.Jof dst n, (u (ix2 e f) : EReal) := by
  unfold sumAtR
  rw [Cert.Lib.IndexedSum.scatterAdd_rows_apply (φ := .f32) scatter_S100000x2_S3300000x1_S3300000x2_1_0_0_1 rfl rfl rfl rfl _
    (colA dst) u n f, rowsAt_colA, zero_S100000x2_apply]

/-- The edge list's row 0, sliced off and flattened, reads the list at `(0, e)`. -/
private theorem rowT_apply (ei : IVec S2x3200000 32) (e : Fin 3200000) :
    shapeCast S3200000 (extractStridedSlice S1x3200000 ![0, 0] ei slices_S2x3200000_S1x3200000_0_0)
      shapeCasts_S1x3200000_S3200000 (ix1 e) = ei (ix2 (0 : Fin 2) e) := by
  rw [shapeCast_apply _ shapeCasts_S1x3200000_S3200000 (ix1 e) (ix2 (0 : Fin 1) e)
    (by rewrite [Shape.rowMajor_val_two, Shape.rowMajor_val_one]; show 0 * 3200000 + e.val = e.val; omega)]
  exact extractStridedSlice_apply ![0, 0] ei slices_S2x3200000_S1x3200000_0_0 (ix2 (0 : Fin 1) e) (ix2 (0 : Fin 2) e)
    (fun a => match a with
      | ⟨0, _⟩ => by show (0 : Nat) = 0 + 0; omega
      | ⟨1, _⟩ => by show e.val = 0 + e.val; omega)

/-- Every source word names a node when the edge list's source row does. -/
theorem srcT_inRange (ei : IVec S2x3200000 32) (h : ∀ e : Fin 3200000, Cert.Gcn.InRange (ei (ix2 (0 : Fin 2) e)))
    (e : Fin 3300000) : Cert.Gcn.InRange (srcT ei (ix1 e)) := by
  unfold srcT
  rw [Cert.Lib.IndexedSum.concat2_apply (A := 3200000) (B := 100000) (T := 3300000) rfl
    concatenates_S3200000_S100000_S3300000_d0 _ _ e]
  by_cases hA : e.val < 3200000
  · -- an edge of the list: the reshaped row slice reads the list's row 0
    rw [dif_pos hA, rowT_apply ei ⟨e.val, hA⟩]
    exact h ⟨e.val, hA⟩
  · -- a self-loop: the word is the loop's number, below 100000
    rw [dif_neg hA]
    have he := e.isLt
    show Cert.Gcn.InRange (BitVec.ofNat 32 (e.val - 3200000))
    unfold Cert.Gcn.InRange
    rw [StableHlo.Predicate.toInt_ofNat_small (e.val - 3200000) (by omega)]
    omega

end Cert.KernelIdeal.Hand

end
-- ==== Proof.KStretch1.lean ====
/-
  The host operations before the first launch and between the first and the second, read back: each buffer a launch
  or a later stretch reads, as a pure function (KTerms) of the buffers the stretch starts from. A buffer no operation
  of a stretch writes is unchanged by it.
-/
import proofs.«407811_j67078799229060_3_alg».proof.Proof.Gen.KernelIdeal.Launch
import proofs.«407811_j67078799229060_3_alg».proof.Proof.KTerms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-- A buffer none of the listed operations writes keeps its contents: the operations' result buffers, read off the
    literal list, are each a reference other than the buffer's. -/
local macro "unwritten " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## Before the first launch -/

/-- The source words. -/
theorem s0_v3 : (StableHlo.after hostOps0 W (Proc.devRef .tc main_v3) : IVec S3300000 32) = srcT (W (Proc.devRef .tc main_arg1)) := by
  dsimp only [hostOps0]
  after_results
  rfl
/-- The target words. -/
theorem s0_v6 : (StableHlo.after hostOps0 W (Proc.devRef .tc main_v6) : IVec S3300000 32) = dstT (W (Proc.devRef .tc main_arg1)) := by
  dsimp only [hostOps0]
  after_results
  rfl
/-- The first launch's degree input: the in-degrees laid out 100 × 1000. -/
theorem s0_v12 : (StableHlo.after hostOps0 W (Proc.devRef .tc main_v12) : FVec F S100x1000 .f32)
    = shapeCast S100x1000 (degT (F := F) (W (Proc.devRef .tc main_arg1))) shapeCasts_S100000_S100x1000 := by
  dsimp only [hostOps0]
  after_results
  rfl
/-- The first launch's feature input: the one input column laid out 100 × 1000. -/
theorem s0_v13 : (StableHlo.after hostOps0 W (Proc.devRef .tc main_v13) : FVec F S100x1000 .f32)
    = shapeCast S100x1000 (shapeCast S100000 (W (Proc.devRef .tc main_arg0) : FVec F S100000x1 .f32) shapeCasts_S100000x1_S100000) shapeCasts_S100000_S100x1000 := by
  dsimp only [hostOps0]
  after_results
  rfl
/-- No operation before the first launch writes an argument. -/
theorem s0_arg0 : StableHlo.after hostOps0 W (Proc.devRef .tc main_arg0) = W (Proc.devRef .tc main_arg0) := by
  unwritten hostOps0
theorem s0_arg1 : StableHlo.after hostOps0 W (Proc.devRef .tc main_arg1) = W (Proc.devRef .tc main_arg1) := by
  unwritten hostOps0
theorem s0_arg2 : StableHlo.after hostOps0 W (Proc.devRef .tc main_arg2) = W (Proc.devRef .tc main_arg2) := by
  unwritten hostOps0
theorem s0_arg3 : StableHlo.after hostOps0 W (Proc.devRef .tc main_arg3) = W (Proc.devRef .tc main_arg3) := by
  unwritten hostOps0
theorem s0_arg4 : StableHlo.after hostOps0 W (Proc.devRef .tc main_arg4) = W (Proc.devRef .tc main_arg4) := by
  unwritten hostOps0
theorem s0_arg5 : StableHlo.after hostOps0 W (Proc.devRef .tc main_arg5) = W (Proc.devRef .tc main_arg5) := by
  unwritten hostOps0

/-! ## Between the first launch and the second: three stretches in a row -/

/-- The contents after the three stretches between the first two launches. -/
abbrev after1 : Valuation τ sig (Elt F) := StableHlo.after hostOps1_2 (StableHlo.after hostOps1_1 (StableHlo.after hostOps1 W))

/-- Contents moved to a typed reference's buffer and back are the contents. -/
private theorem ofBuf_toBuf {T : BufTy} (x : StableHlo.TRef sig T) (v : T.Contents (Elt F)) : x.ofBuf (x.toBuf v) = v := by
  obtain ⟨r, h, a, b⟩ := x
  subst h
  rfl

/-- The first stretch lays the first launch's second output out flat. -/
private theorem h1_v16 : (StableHlo.after hostOps1 W (Proc.devRef .tc main_v16) : FVec F S100000 .f32)
    = shapeCast S100000 (W (Proc.devRef .tc main_v14_1) : FVec F S100x1000 .f32) shapeCasts_S100x1000_S100000 := by
  dsimp only [hostOps1]
  after_results
  rfl

/-- The second stretch, from any contents: its result is the table at `main_v16` read at the words at `main_v3`.
    Each value of the stretch has a buffer of its own, so the composed term is the operations' functions nested; the
    moves between a buffer's contents and the value's type are identities, inside the term in pairs and at the three
    buffers the statement names. -/
private theorem h11_v17 (V : Valuation τ sig (Elt F)) : (StableHlo.after hostOps1_1 V (Proc.devRef .tc main_v17) : FVec F S3300000 .f32)
    = takeV (V (Proc.devRef .tc main_v16)) (V (Proc.devRef .tc main_v3)) := by
  dsimp only [hostOps1_1]
  after_results_simp
  simp only [ofBuf_toBuf]
  unfold takeV maskA wrapA colA
  have h3 : ∀ p q r, (TRef.of (T := ⟨S3300000, .i32⟩) main_v3 p q r).ofBuf (V (Proc.devRef .tc main_v3)) = V (Proc.devRef .tc main_v3) := fun _ _ _ => rfl
  have h16 : ∀ p q r, (TRef.of (T := ⟨S100000, .f32⟩) main_v16 p q r).ofBuf (V (Proc.devRef .tc main_v16)) = V (Proc.devRef .tc main_v16) := fun _ _ _ => rfl
  have h17 : ∀ p q r (v : (⟨S3300000, .f32⟩ : BufTy).Contents (Elt F)), (TRef.of (T := ⟨S3300000, .f32⟩) main_v17 p q r).toBuf v = v := fun _ _ _ _ => rfl
  simp only [h3, h16, h17]

/-- The third stretch, from any contents: the values at `main_v17` summed at the words at `main_v6`, as a column. -/
private theorem h12_v21 (V : Valuation τ sig (Elt F)) : (StableHlo.after hostOps1_2 V (Proc.devRef .tc main_v21) : FVec F S100000x1 .f32)
    = shapeCast S100000x1 (sumAt (V (Proc.devRef .tc main_v6)) (V (Proc.devRef .tc main_v17))) shapeCasts_S100000_S100000x1 := by
  dsimp only [hostOps1_2]
  after_results
  rfl

/-- A buffer none of the three stretches writes holds after them what it held before. -/
private theorem after1_of (b : Ref sig .tc)
    (h2 : ∀ V : Valuation τ sig (Elt F), StableHlo.after hostOps1_2 V (Proc.devRef .tc b) = V (Proc.devRef .tc b))
    (h1 : ∀ V : Valuation τ sig (Elt F), StableHlo.after hostOps1_1 V (Proc.devRef .tc b) = V (Proc.devRef .tc b))
    (h0 : ∀ V : Valuation τ sig (Elt F), StableHlo.after hostOps1 V (Proc.devRef .tc b) = V (Proc.devRef .tc b)) :
    after1 W (Proc.devRef .tc b) = W (Proc.devRef .tc b) := by
  unfold after1
  rw [h2, h1, h0]

/-- The degree scale as a flat array: the first launch's first output laid out flat. -/
theorem s1_v15 : (after1 W (Proc.devRef .tc main_v15) : FVec F S100000 .f32)
    = shapeCast S100000 (W (Proc.devRef .tc main_v14_0) : FVec F S100x1000 .f32) shapeCasts_S100x1000_S100000 := by
  unfold after1
  dsimp only [hostOps1, hostOps1_1, hostOps1_2]
  after_results
  rfl
/-- The second launch's message input: the pre-scaled inputs read at the source words and summed at the target words. -/
theorem s1_v21 : (after1 W (Proc.devRef .tc main_v21) : FVec F S100000x1 .f32)
    = shapeCast S100000x1 (sumAt (W (Proc.devRef .tc main_v6)) (takeV (shapeCast S100000 (W (Proc.devRef .tc main_v14_1) : FVec F S100x1000 .f32) shapeCasts_S100x1000_S100000) (W (Proc.devRef .tc main_v3)))) shapeCasts_S100000_S100000x1 := by
  have e6 : StableHlo.after hostOps1_1 (StableHlo.after hostOps1 W) (Proc.devRef .tc main_v6) = W (Proc.devRef .tc main_v6) :=
    (by unwritten hostOps1_1 : StableHlo.after hostOps1_1 (StableHlo.after hostOps1 W) (Proc.devRef .tc main_v6) = StableHlo.after hostOps1 W (Proc.devRef .tc main_v6)).trans (by unwritten hostOps1)
  have e3 : StableHlo.after hostOps1 W (Proc.devRef .tc main_v3) = W (Proc.devRef .tc main_v3) := by unwritten hostOps1
  unfold after1
  rw [h12_v21, h11_v17, e6, h1_v16, e3]
/-- The second launch's scale input: the degree scale as a column. -/
theorem s1_v22 : (after1 W (Proc.devRef .tc main_v22) : FVec F S100000x1 .f32)
    = shapeCast S100000x1 (shapeCast S100000 (W (Proc.devRef .tc main_v14_0) : FVec F S100x1000 .f32) shapeCasts_S100x1000_S100000) shapeCasts_S100000_S100000x1 := by
  unfold after1
  dsimp only [hostOps1, hostOps1_1, hostOps1_2]
  after_results
  rfl
/-- Buffers the three stretches do not write. -/
theorem s1_v3 : after1 W (Proc.devRef .tc main_v3) = W (Proc.devRef .tc main_v3) :=
  after1_of W main_v3 (fun V => by unwritten hostOps1_2) (fun V => by unwritten hostOps1_1) (fun V => by unwritten hostOps1)
theorem s1_v6 : after1 W (Proc.devRef .tc main_v6) = W (Proc.devRef .tc main_v6) :=
  after1_of W main_v6 (fun V => by unwritten hostOps1_2) (fun V => by unwritten hostOps1_1) (fun V => by unwritten hostOps1)
theorem s1_arg2 : after1 W (Proc.devRef .tc main_arg2) = W (Proc.devRef .tc main_arg2) :=
  after1_of W main_arg2 (fun V => by unwritten hostOps1_2) (fun V => by unwritten hostOps1_1) (fun V => by unwritten hostOps1)
theorem s1_arg3 : after1 W (Proc.devRef .tc main_arg3) = W (Proc.devRef .tc main_arg3) :=
  after1_of W main_arg3 (fun V => by unwritten hostOps1_2) (fun V => by unwritten hostOps1_1) (fun V => by unwritten hostOps1)
theorem s1_arg4 : after1 W (Proc.devRef .tc main_arg4) = W (Proc.devRef .tc main_arg4) :=
  after1_of W main_arg4 (fun V => by unwritten hostOps1_2) (fun V => by unwritten hostOps1_1) (fun V => by unwritten hostOps1)
theorem s1_arg5 : after1 W (Proc.devRef .tc main_arg5) = W (Proc.devRef .tc main_arg5) :=
  after1_of W main_arg5 (fun V => by unwritten hostOps1_2) (fun V => by unwritten hostOps1_1) (fun V => by unwritten hostOps1)

end Cert.KernelIdeal.Hand

end
-- ==== Proof.KStretch2.lean ====
/-
  The host operations between the second launch and the third, read back: the second launch's rows read at the source
  words and summed at the target words, and the degree scale as a column.
-/
import proofs.«407811_j67078799229060_3_alg».proof.Proof.Gen.KernelIdeal.Launch
import proofs.«407811_j67078799229060_3_alg».proof.Proof.KTerms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-- The contents after the two stretches between the last two launches. -/
abbrev after2 : Valuation τ sig (Elt F) := StableHlo.after hostOps2_1 (StableHlo.after hostOps2 W)

/-- The take does not write the degree scale. -/
private theorem take_v15 : StableHlo.after hostOps2 W (Proc.devRef .tc main_v15) = W (Proc.devRef .tc main_v15) :=
  StableHlo.after_of_forall_not_mem (b := Proc.devRef .tc main_v15) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The last stretch's reshape, from any contents. -/
private theorem last_v28 (V : Valuation τ sig (Elt F)) :
    (StableHlo.after hostOps2_1 V (Proc.devRef .tc main_v28) : FVec F S100000x1 .f32)
      = shapeCast S100000x1 (V (Proc.devRef .tc main_v15) : FVec F S100000 .f32) shapeCasts_S100000_S100000x1 := by
  dsimp only [hostOps2_1]
  after_results
  rfl

/-- The take does not write the target words. -/
private theorem take_v6 : StableHlo.after hostOps2 W (Proc.devRef .tc main_v6) = W (Proc.devRef .tc main_v6) :=
  StableHlo.after_of_forall_not_mem (b := Proc.devRef .tc main_v6) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The last stretch's sum at the target words, from any contents. -/
private theorem last_v27 (V : Valuation τ sig (Elt F)) :
    (StableHlo.after hostOps2_1 V (Proc.devRef .tc main_v27) : FVec F S100000x2 .f32)
      = sumAtR (V (Proc.devRef .tc main_v6)) (V (Proc.devRef .tc main_v24)) := by
  dsimp only [hostOps2_1]
  after_results
  rfl

/-! The take, in three steps: the wrapped source words as a column; whether each names a node; the rows read, filled
    where it names none. Each step is read back from any contents, so that no comparison spans more than one step. -/

/-- The take's first step: the wrapped source words as a column. -/
private abbrev takeWrap : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S3300000, .i32⟩) (broadcastInDim S3300000 ![] bcast_S_S3300000),
    StableHlo.TRef.binary (.of main_v3 : StableHlo.TRef sig ⟨S3300000, .i32⟩) (.of main_call1_v0 : StableHlo.TRef sig ⟨S3300000, .i32⟩) (.of main_call1_v1 : StableHlo.TRef sig ⟨S3300000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S3300000, .i32⟩) (broadcastInDim S3300000 ![] bcast_S_S3300000),
    StableHlo.TRef.binary (.of main_v3 : StableHlo.TRef sig ⟨S3300000, .i32⟩) (.of main_call1_v2 : StableHlo.TRef sig ⟨S3300000, .i32⟩) (.of main_call1_v3 : StableHlo.TRef sig ⟨S3300000, .i32⟩) addi,
    StableHlo.TRef.ternary (.of main_call1_v1 : StableHlo.TRef sig ⟨S3300000, .i1⟩) (.of main_call1_v3 : StableHlo.TRef sig ⟨S3300000, .i32⟩) (.of main_v3 : StableHlo.TRef sig ⟨S3300000, .i32⟩) (.of main_call1_v4 : StableHlo.TRef sig ⟨S3300000, .i32⟩) select,
    StableHlo.TRef.unary main_call1_call0.v0 (.of main_call1_v5 : StableHlo.TRef sig ⟨S3300000x1, .i32⟩) (broadcastInDim S3300000x1 ![0] bcast_S3300000_S3300000x1_0) ]

/-- The take's second step: whether each wrapped word names a node. -/
private abbrev takeMask : List (HloOp τ sig (Elt F)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S3300000x1, .i32⟩) (broadcastInDim S3300000x1 ![] bcast_S_S3300000x1),
    StableHlo.TRef.binary (.of main_call1_v5 : StableHlo.TRef sig ⟨S3300000x1, .i32⟩) (.of main_call1_v6 : StableHlo.TRef sig ⟨S3300000x1, .i32⟩) (.of main_call1_v7 : StableHlo.TRef sig ⟨S3300000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S3300000x1, .i32⟩) (broadcastInDim S3300000x1 ![0, 1] bcast_S1x1_S3300000x1_0_1),
    StableHlo.TRef.binary (.of main_call1_v5 : StableHlo.TRef sig ⟨S3300000x1, .i32⟩) (.of main_call1_v9 : StableHlo.TRef sig ⟨S3300000x1, .i32⟩) (.of main_call1_v10 : StableHlo.TRef sig ⟨S3300000x1, .i1⟩) (cmpi .sle),
    StableHlo.TRef.binary (.of main_call1_v7 : StableHlo.TRef sig ⟨S3300000x1, .i1⟩) (.of main_call1_v10 : StableHlo.TRef sig ⟨S3300000x1, .i1⟩) (.of main_call1_v11 : StableHlo.TRef sig ⟨S3300000x1, .i1⟩) andi,
    StableHlo.TRef.nullary (.of main_call1_c_3 : StableHlo.TRef sig ⟨S_, .i1⟩) (constantI S_ 1 1#1),
    StableHlo.TRef.binary (.of main_call1_v11 : StableHlo.TRef sig ⟨S3300000x1, .i1⟩) (.of main_call1_c_3 : StableHlo.TRef sig ⟨S_, .i1⟩) (.of main_call1_v12 : StableHlo.TRef sig ⟨S3300000, .i1⟩) (fun x v => Host.reduce IntOp.andi x v reducesTo_S3300000x1_S3300000_d1 h_S_) ]

/-- The take's third step: the rows read at the column, filled where the word names no node. -/
private abbrev takeRead : List (HloOp τ sig (Elt F)) :=
  [ StableHlo.TRef.binary (.of main_v23 : StableHlo.TRef sig ⟨S100000x2, .f32⟩) (.of main_call1_v5 : StableHlo.TRef sig ⟨S3300000x1, .i32⟩) (.of main_call1_v13 : StableHlo.TRef sig ⟨S3300000x2, .f32⟩) (fun x i => Host.gather gather_S100000x2_S3300000x1_S3300000x2_1_0_n_n_0_1_12 x i),
    StableHlo.TRef.unary (.of main_call1_v12 : StableHlo.TRef sig ⟨S3300000, .i1⟩) (.of main_call1_v14 : StableHlo.TRef sig ⟨S3300000x2, .i1⟩) (broadcastInDim S3300000x2 ![0] bcast_S3300000_S3300000x2_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S3300000x2, .f32⟩) (broadcastInDim S3300000x2 ![] bcast_S_S3300000x2),
    StableHlo.TRef.ternary (.of main_call1_v14 : StableHlo.TRef sig ⟨S3300000x2, .i1⟩) (.of main_call1_v13 : StableHlo.TRef sig ⟨S3300000x2, .f32⟩) (.of main_call1_v15 : StableHlo.TRef sig ⟨S3300000x2, .f32⟩) (.of main_v24 : StableHlo.TRef sig ⟨S3300000x2, .f32⟩) select ]

/-- The contents after two lines in a row. -/
private theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The take is its three steps in a row. -/
private theorem take_steps : (hostOps2 : List (HloOp τ sig (Elt F))) = takeWrap ++ (takeMask ++ takeRead) := rfl

/-- Whether each word of a column names a node: `maskA` at any column. -/
private def maskC (c : IVec S3300000x1 32) : IVec S3300000 1 :=
  (fun x v => Host.reduce IntOp.andi x v reducesTo_S3300000x1_S3300000_d1 h_S_)
    (andi (cmpi .sge c (broadcastInDim S3300000x1 ![] bcast_S_S3300000x1 (constantI S_ 32 0#32)))
      (cmpi .sle c (broadcastInDim S3300000x1 ![0, 1] bcast_S1x1_S3300000x1_0_1 (broadcastInDim S1x1 ![1] bcast_S1_S1x1_1 (constantI S1 32 99999#32)))))
    (constantI S_ 1 1#1)

private theorem maskA_eq (src : IVec S3300000 32) : maskA src = maskC (colA (wrapA src)) := rfl

/-- The first step's column. -/
private theorem wrap_v5 (V : Valuation τ sig (Elt F)) :
    (StableHlo.after takeWrap V (Proc.devRef .tc main_call1_v5) : IVec S3300000x1 32)
      = colA (wrapA (V (Proc.devRef .tc main_v3))) := by
  dsimp only [takeWrap]
  after_results_simp
  simp only [TRef.ofBuf, TRef.toBuf, cast_cast, cast_eq]
  rfl

/-- The first step does not write the table. -/
private theorem wrap_v23 (V : Valuation τ sig (Elt F)) :
    StableHlo.after takeWrap V (Proc.devRef .tc main_v23) = V (Proc.devRef .tc main_v23) :=
  StableHlo.after_of_forall_not_mem (b := Proc.devRef .tc main_v23) _ _ (List.forall_iff_forall_mem.mp (by
    simp only [takeWrap, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The second step's mask, of the column it finds. -/
private theorem mask_v12 (V : Valuation τ sig (Elt F)) :
    (StableHlo.after takeMask V (Proc.devRef .tc main_call1_v12) : IVec S3300000 1)
      = maskC (V (Proc.devRef .tc main_call1_v5)) := by
  dsimp only [takeMask]
  after_results_simp
  simp only [TRef.ofBuf, TRef.toBuf, cast_cast, cast_eq]
  rfl

/-- The second step does not write the column. -/
private theorem mask_v5 (V : Valuation τ sig (Elt F)) :
    StableHlo.after takeMask V (Proc.devRef .tc main_call1_v5) = V (Proc.devRef .tc main_call1_v5) :=
  StableHlo.after_of_forall_not_mem (b := Proc.devRef .tc main_call1_v5) _ _ (List.forall_iff_forall_mem.mp (by
    simp only [takeMask, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The second step does not write the table. -/
private theorem mask_v23 (V : Valuation τ sig (Elt F)) :
    StableHlo.after takeMask V (Proc.devRef .tc main_v23) = V (Proc.devRef .tc main_v23) :=
  StableHlo.after_of_forall_not_mem (b := Proc.devRef .tc main_v23) _ _ (List.forall_iff_forall_mem.mp (by
    simp only [takeMask, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The third step's rows, of the mask, the table and the column it finds. -/
private theorem read_v24 (V : Valuation τ sig (Elt F)) :
    (StableHlo.after takeRead V (Proc.devRef .tc main_v24) : FVec F S3300000x2 .f32)
      = select (broadcastInDim S3300000x2 ![0] bcast_S3300000_S3300000x2_0 (V (Proc.devRef .tc main_call1_v12)))
          (Host.gather gather_S100000x2_S3300000x1_S3300000x2_1_0_n_n_0_1_12 (V (Proc.devRef .tc main_v23)) (V (Proc.devRef .tc main_call1_v5)))
          (broadcastInDim S3300000x2 ![] bcast_S_S3300000x2 (constant S_ .f32 0x7FC00000#32)) := by
  dsimp only [takeRead]
  after_results_simp
  simp only [TRef.ofBuf, TRef.toBuf, cast_cast, cast_eq]

/-- The take's result: the rows of the table read at the source words. -/
private theorem take_v24 :
    (StableHlo.after hostOps2 W (Proc.devRef .tc main_v24) : FVec F S3300000x2 .f32)
      = takeR (W (Proc.devRef .tc main_v23)) (W (Proc.devRef .tc main_v3)) := by
  rw [take_steps, after_app, after_app, read_v24, mask_v12, mask_v5, mask_v23, wrap_v5, wrap_v23]
  unfold takeR
  rw [maskA_eq]

/-- The third launch's aggregate input. -/
theorem s2_v27 : (after2 W (Proc.devRef .tc main_v27) : FVec F S100000x2 .f32)
    = sumAtR (W (Proc.devRef .tc main_v6)) (takeR (W (Proc.devRef .tc main_v23)) (W (Proc.devRef .tc main_v3))) :=
  (last_v27 _).trans (by rw [take_v6, take_v24])
/-- The third launch's scale input: the flat degree scale as a column. -/
theorem s2_v28 : (after2 W (Proc.devRef .tc main_v28) : FVec F S100000x1 .f32)
    = shapeCast S100000x1 (W (Proc.devRef .tc main_v15) : FVec F S100000 .f32) shapeCasts_S100000_S100000x1 :=
  (last_v28 _).trans (by rw [take_v15])
/-- The output bias is not written. -/
theorem s2_arg5 : after2 W (Proc.devRef .tc main_arg5) = W (Proc.devRef .tc main_arg5) :=
  (StableHlo.after_of_forall_not_mem (b := Proc.devRef .tc main_arg5) _ _ (List.forall_iff_forall_mem.mp (by
      simp only [hostOps2_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans
    (StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end Cert.KernelIdeal.Hand

end
-- ==== Proof.KRegion0.lean ====
/-
  The first launch (one grid point, whole 100 × 1000 blocks): what its two output arrays hold once the launch has run.
  The kernel computes, entry by entry, the degree scale `1/√d` (zero where the degree is not positive) and the input
  times that scale; with a single point whose blocks are the whole arrays, the output arrays ARE those blocks.
-/
import proofs.«407811_j67078799229060_3_alg».proof.Proof.KArrays
import proofs.«407811_j67078799229060_3_alg».proof.Proof.GcnIndex
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The body's arithmetic at one entry -/

/-- The body loads and stores through the rectangle at offsets (0, 0). -/
private theorem zero_offsets : (![0, 0] : Fin 2 → Nat) = fun _ => 0 := funext fun a => by fin_cases a <;> rfl

/-- The first stored value at entry `i`: compare the degree with zero, take the reciprocal square root where it is
    positive and zero elsewhere. Every operation is entrywise, and the zero constant is the real number zero. -/
private theorem pay1_apply (x0 : Vec Ideal S100x1000 .f32) (i : S100x1000.Idx) :
    k0_pay1 x0 i = Cert.Gcn.dinvE (x0 i) := by
  unfold k0_pay1 Cert.Gcn.dinvE
  simp only [shapeCast_self]
  show Scalar.select (Ideal.cmp .ogt (x0 i) (Ideal.ofBits .f32 0x00000000#32)) (Ideal.rsqrt (x0 i)) (Ideal.ofBits .f32 0x00000000#32) = _
  rw [Ideal.ofBits_zero_f32]

/-- The second stored value at entry `i`: the input entry times the degree scale of the same entry. -/
private theorem pay2_apply (x0 x1 : Vec Ideal S100x1000 .f32) (i : S100x1000.Idx) :
    k0_pay2 x0 x1 i = x1 i * Cert.Gcn.dinvE (x0 i) := by
  unfold k0_pay2
  simp only [shapeCast_self]
  rw [mulf_apply, pay1_apply]

/-! ## The two outputs as whole-array functions of the two inputs -/

/-- The degree scale of every entry of the degree array. -/
private abbrev scaleOf (c : Dev nD) : S100x1000.Idx → EReal := fun i => Cert.Gcn.dinvE (kin12 V c i)
/-- The input array times the degree scale, entry by entry. -/
private abbrev scaledOf (c : Dev nD) : S100x1000.Idx → EReal := fun i => kin13 V c i * Cert.Gcn.dinvE (kin12 V c i)

/-- The grid has one point, and at it every window's block is block (0, 0): the whole array. -/
private theorem block_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What a point writes back to the first output is its block of `scaleOf`: the body's value at block entry `j` is the
    degree scale of the degree block's entry `j`, and the degree block and the output block sit at the same place of
    their arrays (a block's coordinate is block index × block size + the coordinate inside the block). -/
private theorem flushed_scale (c : Dev nD) (t : Fin cfg0.N) :
    (dat0 (F := Ideal) V c).flushed 2 t = ((cfg0.win 2).blk t).view.read (Elt Ideal) (scaleOf V c) := by
  show (cfg0.win 2).cut (grid0.coords t) ((dat0 (F := Ideal) V c).after 2 t) = _
  rw [after0_2]
  unfold out0_2
  rw [View.canon_unit_zero zero_offsets]
  simp only [View.ld_unit_zero (S := S100x1000) zero_offsets]
  obtain ⟨e0, e1, e2, e3, e4, e5, e6, e7⟩ := block_zero t
  funext j
  show k0_pay1 (F := Ideal) (iblk0 V c 0 t) j = Cert.Gcn.dinvE (kin12 V c (((cfg0.win 2).blk t).view.emb j))
  rw [pay1_apply]
  show Cert.Gcn.dinvE (kin12 V c (((cfg0.win 0).blk t).view.emb j)) = _
  have h0 : ((cfg0.win 0).blk t).view.emb j = ((cfg0.win 2).blk t).view.emb j := by
    funext a; apply Fin.ext
    match a with
    | ⟨0, _⟩ => show win0_0.index t (0 : Fin 2) * 100 + 1 * (j 0).val = win0_2.index t (0 : Fin 2) * 100 + 1 * (j 0).val; omega
    | ⟨1, _⟩ => show win0_0.index t (1 : Fin 2) * 1000 + 1 * (j 1).val = win0_2.index t (1 : Fin 2) * 1000 + 1 * (j 1).val; omega
  rw [h0]

/-- What a point writes back to the second output is its block of `scaledOf`, for the same reason: the input block,
    the degree block and the output block all sit at the same place of their arrays. -/
private theorem flushed_scaled (c : Dev nD) (t : Fin cfg0.N) :
    (dat0 (F := Ideal) V c).flushed 3 t = ((cfg0.win 3).blk t).view.read (Elt Ideal) (scaledOf V c) := by
  show (cfg0.win 3).cut (grid0.coords t) ((dat0 (F := Ideal) V c).after 3 t) = _
  rw [after0_3]
  unfold out0_3
  rw [View.canon_unit_zero zero_offsets]
  simp only [View.ld_unit_zero (S := S100x1000) zero_offsets]
  obtain ⟨e0, e1, e2, e3, e4, e5, e6, e7⟩ := block_zero t
  funext j
  show k0_pay2 (F := Ideal) (iblk0 V c 0 t) (iblk0 V c 1 t) j
    = kin13 V c (((cfg0.win 3).blk t).view.emb j) * Cert.Gcn.dinvE (kin12 V c (((cfg0.win 3).blk t).view.emb j))
  rw [pay2_apply]
  show kin13 V c (((cfg0.win 1).blk t).view.emb j) * Cert.Gcn.dinvE (kin12 V c (((cfg0.win 0).blk t).view.emb j)) = _
  have h0 : ((cfg0.win 0).blk t).view.emb j = ((cfg0.win 3).blk t).view.emb j := by
    funext a; apply Fin.ext
    match a with
    | ⟨0, _⟩ => show win0_0.index t (0 : Fin 2) * 100 + 1 * (j 0).val = win0_3.index t (0 : Fin 2) * 100 + 1 * (j 0).val; omega
    | ⟨1, _⟩ => show win0_0.index t (1 : Fin 2) * 1000 + 1 * (j 1).val = win0_3.index t (1 : Fin 2) * 1000 + 1 * (j 1).val; omega
  have h1 : ((cfg0.win 1).blk t).view.emb j = ((cfg0.win 3).blk t).view.emb j := by
    funext a; apply Fin.ext
    match a with
    | ⟨0, _⟩ => show win0_1.index t (0 : Fin 2) * 100 + 1 * (j 0).val = win0_3.index t (0 : Fin 2) * 100 + 1 * (j 0).val; omega
    | ⟨1, _⟩ => show win0_1.index t (1 : Fin 2) * 1000 + 1 * (j 1).val = win0_3.index t (1 : Fin 2) * 1000 + 1 * (j 1).val; omega
  rw [h0, h1]

/-! ## From the one block to the array -/

/-- An entry of the first output array is in a point's block iff each coordinate is in the block's range on its axis. -/
private theorem mem_block_scale (t : Fin cfg0.N) (i : S100x1000.Idx) :
    i ∈ ((cfg0.win 2).blk t).view.set ↔ ∀ a : Fin 2, win0_2.index t a * S100x1000.size a ≤ (i a).val ∧ (i a).val < win0_2.index t a * S100x1000.size a + S100x1000.size a := by
  show i ∈ ((View.whole main_v14_0).slice (win0_2.rect t)).set ↔ _
  rw [View.set_slice_whole, Rect.mem_set_unit]
  exact Iff.rfl

/-- The same for the second output array. -/
private theorem mem_block_scaled (t : Fin cfg0.N) (i : S100x1000.Idx) :
    i ∈ ((cfg0.win 3).blk t).view.set ↔ ∀ a : Fin 2, win0_3.index t a * S100x1000.size a ≤ (i a).val ∧ (i a).val < win0_3.index t a * S100x1000.size a + S100x1000.size a := by
  show i ∈ ((View.whole main_v14_1).slice (win0_3.rect t)).set ↔ _
  rw [View.set_slice_whole, Rect.mem_set_unit]
  exact Iff.rfl

/-- The grid has a point. -/
private theorem has_point : 0 < cfg0.N := by decide +kernel

/-- The one point's block, rows 0 … 99 and columns 0 … 999, covers every entry, so the first output array ends
    holding `scaleOf`. -/
private theorem final_scale (c : Dev nD) : kout0a V c = scaleOf V c :=
  (dat0 (F := Ideal) V c).arrAt_eq_of_cover 2 (scaleOf V c) (fun t _ => flushed_scale V c t) fun i => by
    refine ⟨⟨0, has_point⟩, flush0_2 _, ?_⟩
    obtain ⟨e0, e1, e2, e3, e4, e5, e6, e7⟩ := block_zero ⟨0, has_point⟩
    rw [mem_block_scale]
    intro a
    have hi0 : (i 0).val < 100 := (i 0).isLt
    have hi1 : (i 1).val < 1000 := (i 1).isLt
    match a with
    | ⟨0, _⟩ => show win0_2.index ⟨0, has_point⟩ (0 : Fin 2) * 100 ≤ (i 0).val ∧ (i 0).val < win0_2.index ⟨0, has_point⟩ (0 : Fin 2) * 100 + 100; omega
    | ⟨1, _⟩ => show win0_2.index ⟨0, has_point⟩ (1 : Fin 2) * 1000 ≤ (i 1).val ∧ (i 1).val < win0_2.index ⟨0, has_point⟩ (1 : Fin 2) * 1000 + 1000; omega

/-- Likewise the second output array ends holding `scaledOf`. -/
private theorem final_scaled (c : Dev nD) : kout0b V c = scaledOf V c :=
  (dat0 (F := Ideal) V c).arrAt_eq_of_cover 3 (scaledOf V c) (fun t _ => flushed_scaled V c t) fun i => by
    refine ⟨⟨0, has_point⟩, flush0_3 _, ?_⟩
    obtain ⟨e0, e1, e2, e3, e4, e5, e6, e7⟩ := block_zero ⟨0, has_point⟩
    rw [mem_block_scaled]
    intro a
    have hi0 : (i 0).val < 100 := (i 0).isLt
    have hi1 : (i 1).val < 1000 := (i 1).isLt
    match a with
    | ⟨0, _⟩ => show win0_3.index ⟨0, has_point⟩ (0 : Fin 2) * 100 ≤ (i 0).val ∧ (i 0).val < win0_3.index ⟨0, has_point⟩ (0 : Fin 2) * 100 + 100; omega
    | ⟨1, _⟩ => show win0_3.index ⟨0, has_point⟩ (1 : Fin 2) * 1000 ≤ (i 1).val ∧ (i 1).val < win0_3.index ⟨0, has_point⟩ (1 : Fin 2) * 1000 + 1000; omega

/-! ## The two outputs, entry by entry -/

/-- The degree-scale output at entry `(r, q)`. -/
theorem region0_dinv (c : Dev nD) (r : Fin 100) (q : Fin 1000) :
    kout0a V c (ix2 r q) = Cert.Gcn.dinvE (kin12 V c (ix2 r q)) := by
  rw [final_scale]

/-- The pre-scaled input at entry `(r, q)`. -/
theorem region0_xs (c : Dev nD) (r : Fin 100) (q : Fin 1000) :
    kout0b V c (ix2 r q) = kin13 V c (ix2 r q) * Cert.Gcn.dinvE (kin12 V c (ix2 r q)) := by
  rw [final_scaled]

end Cert.KernelIdeal.Hand

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.KRegion1.lean ====
/-
  The second launch (twenty grid points, blocks of 5000 node rows): what its output array holds once it has run.
  Row `n` of the output depends on row `n` of the two per-node inputs and on the three small weight arrays only:
  the summed message `s n` post-scaled by `dinv n`, times the weight row plus the bias, clipped at zero, pre-scaled
  by `dinv n` again and multiplied into the 16 × 2 weight matrix (a format change is the identity on extended reals, and
  the matrix product into a zero accumulator is the plain sum over the 16 hidden features).

  The road: first the body's arithmetic at one entry (p, f) of a 5000 × 2 block, as a function of the five blocks it
  loads; then each loaded block read where it lies in its array (grid point `t` holds rows `5000 t … 5000 t + 4999` of
  the two columns, and all of the three weight arrays); so point `t` writes back rows `5000 t …` of ONE function of
  the input arrays, and since the twenty blocks tile the 100000 rows the output array is that function.
-/
import proofs.«407811_j67078799229060_3_alg».proof.Proof.KArrays
import proofs.«407811_j67078799229060_3_alg».proof.Proof.GcnIndex
import proofs.«407811_j67078799229060_3_alg».proof.Proof.LibPlainDot
import Idealize.ShloMosaic.Lib.ValueLayout
set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The body's arithmetic at one entry of a block -/

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, f) of the block the body stores, from the blocks it loads: the product of row `p` of the two columns,
    times the weight row plus the bias, clipped at zero, times the second column's row `p` again, summed against
    column `f` of the 16 × 2 matrix. The casts of a shape to itself are the identity, the two column broadcasts read
    row `p`, the two row broadcasts read feature `k`, the narrowing format changes are the identity on extended reals,
    and the matrix product into the zero accumulator is the plain sum over the contraction coordinate. -/
private theorem pay1_apply (v0 v2 : Vec Ideal S5000x1 .f32) (v5 : Vec Ideal S1x16 .f32) (v6 : Vec Ideal S16 .f32)
    (v20 : Vec Ideal S16x2 .f32) (p : Fin 5000) (f : Fin 2) :
    k1_pay1 v0 v2 v5 v6 v20 (ix2 p f)
      = ∑ k : Fin 16, max (v0 (ix2 p (0 : Fin 1)) * v2 (ix2 p (0 : Fin 1)) * v5 (ix2 (0 : Fin 1) k) + v6 (ix1 k)) 0
          * v2 (ix2 p (0 : Fin 1)) * v20 (ix2 k f) := by
  unfold k1_pay1
  refine (Cert.Lib.PlainDot.matmul_plain_zero_ix2 5000 16 2 none _ _ p f).trans ?_
  refine Finset.sum_congr rfl fun k _ => ?_
  simp only [truncf_apply, mulf_apply, maximumf_apply, addf_apply, broadcast_apply, shapeCast_self]
  have e1 : broadcastTo S5000x16 (mulf (F := Ideal) (φ := .f32) v0 v2) broadcasts_S5000x1_S5000x16 (ix2 p k)
      = v0 (ix2 p (0 : Fin 1)) * v2 (ix2 p (0 : Fin 1)) :=
    broadcastTo_a1_ab_apply (mulf (F := Ideal) (φ := .f32) v0 v2) broadcasts_S5000x1_S5000x16 p k
  have e2 : broadcastTo S5000x16 v2 broadcasts_S5000x1_S5000x16 (ix2 p k) = v2 (ix2 p (0 : Fin 1)) :=
    broadcastTo_a1_ab_apply v2 broadcasts_S5000x1_S5000x16 p k
  have e3 : broadcastTo S5000x16 v5 broadcasts_S1x16_S5000x16 (ix2 p k) = v5 (ix2 (0 : Fin 1) k) :=
    broadcastTo_1b_ab_apply v5 broadcasts_S1x16_S5000x16 p k
  have e4 : broadcastTo S5000x16 (shapeCast S1x16 v6 shapeCasts_S16_S1x16) broadcasts_S1x16_S5000x16 (ix2 p k)
      = v6 (ix1 k) :=
    (broadcastTo_1b_ab_apply (shapeCast S1x16 v6 shapeCasts_S16_S1x16) broadcasts_S1x16_S5000x16 p k).trans
      (shapeCast_a_1a_apply v6 shapeCasts_S16_S1x16 (0 : Fin 1) k)
  have ez : (FloatOps.ofBits (F := Ideal) .f32 0#32) = (0 : EReal) := Ideal.ofBits_zero_f32
  rw [e1, e2, e3, e4, ez]

/-- The same at any index of the block whose two coordinates are `p` and `f`. -/
private theorem pay1_at (v0 v2 : Vec Ideal S5000x1 .f32) (v5 : Vec Ideal S1x16 .f32) (v6 : Vec Ideal S16 .f32)
    (v20 : Vec Ideal S16x2 .f32) (j : S5000x2.Idx) (p : Fin 5000) (f : Fin 2)
    (h0 : (j 0).val = p.val) (h1 : (j 1).val = f.val) :
    k1_pay1 v0 v2 v5 v6 v20 j
      = ∑ k : Fin 16, max (v0 (ix2 p (0 : Fin 1)) * v2 (ix2 p (0 : Fin 1)) * v5 (ix2 (0 : Fin 1) k) + v6 (ix1 k)) 0
          * v2 (ix2 p (0 : Fin 1)) * v20 (ix2 k f) := by
  have e : j = ix2 p f := funext fun a => Fin.ext (by
    match a with
    | ⟨0, _⟩ => exact h0
    | ⟨1, _⟩ => exact h1)
  rw [e]
  exact pay1_apply v0 v2 v5 v6 v20 p f

/-! ## Where each block lies in its array -/

private theorem hz2 : (![0, 0] : Fin 2 → Nat) = fun _ => 0 := funext fun a => by fin_cases a <;> rfl
private theorem hz1 : (![0] : Fin 1 → Nat) = fun _ => 0 := funext fun a => by fin_cases a <;> rfl

/-- The six index maps over the twenty grid points: the two per-node columns and the output are at block row `t`,
    block column 0; the three weight arrays are at block 0 on every axis. -/
private theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row `p` of the summed-messages block at point `t` is row `5000 t + p` of the column. -/
private theorem blk0_read (c : Dev nD) (t : Fin cfg1.N) (p : Fin 5000) (n : Fin 100000) (hn : n.val = t.val * 5000 + p.val) :
    iblk1 (F := Ideal) V c 0 t (ix2 p (0 : Fin 1)) = kin21 V c (ix2 n (0 : Fin 1)) := by
  show V c main_v21 (((cfg1.win 0).blk t).view.emb (ix2 p (0 : Fin 1))) = V c main_v21 (ix2 n (0 : Fin 1))
  obtain ⟨e0, e1, -⟩ := idx_facts1 t
  refine congrArg (V c main_v21) (funext fun a => Fin.ext ?_)
  match a with
  | ⟨0, _⟩ => show win1_0.index t (0 : Fin 2) * 5000 + 1 * p.val = n.val; omega
  | ⟨1, _⟩ => show win1_0.index t (1 : Fin 2) * 1 + 1 * 0 = 0; omega

/-- Row `p` of the degree-scale block at point `t` is row `5000 t + p` of the column. -/
private theorem blk1_read (c : Dev nD) (t : Fin cfg1.N) (p : Fin 5000) (n : Fin 100000) (hn : n.val = t.val * 5000 + p.val) :
    iblk1 (F := Ideal) V c 1 t (ix2 p (0 : Fin 1)) = kin22 V c (ix2 n (0 : Fin 1)) := by
  show V c main_v22 (((cfg1.win 1).blk t).view.emb (ix2 p (0 : Fin 1))) = V c main_v22 (ix2 n (0 : Fin 1))
  obtain ⟨-, -, e0, e1, -⟩ := idx_facts1 t
  refine congrArg (V c main_v22) (funext fun a => Fin.ext ?_)
  match a with
  | ⟨0, _⟩ => show win1_1.index t (0 : Fin 2) * 5000 + 1 * p.val = n.val; omega
  | ⟨1, _⟩ => show win1_1.index t (1 : Fin 2) * 1 + 1 * 0 = 0; omega

/-- The weight row's block at every point is the whole weight row. -/
private theorem blk2_read (c : Dev nD) (t : Fin cfg1.N) (k : Fin 16) :
    iblk1 (F := Ideal) V c 2 t (ix2 (0 : Fin 1) k) = kinW1 V c (ix2 (0 : Fin 1) k) := by
  show V c main_arg2 (((cfg1.win 2).blk t).view.emb (ix2 (0 : Fin 1) k)) = V c main_arg2 (ix2 (0 : Fin 1) k)
  obtain ⟨-, -, -, -, e0, e1, -⟩ := idx_facts1 t
  refine congrArg (V c main_arg2) (funext fun a => Fin.ext ?_)
  match a with
  | ⟨0, _⟩ => show win1_2.index t (0 : Fin 2) * 1 + 1 * 0 = 0; omega
  | ⟨1, _⟩ => show win1_2.index t (1 : Fin 2) * 16 + 1 * k.val = k.val; omega

/-- The bias's block at every point is the whole bias. -/
private theorem blk3_read (c : Dev nD) (t : Fin cfg1.N) (k : Fin 16) :
    iblk1 (F := Ideal) V c 3 t (ix1 k) = kinB1 V c (ix1 k) := by
  show V c main_arg3 (((cfg1.win 3).blk t).view.emb (ix1 k)) = V c main_arg3 (ix1 k)
  obtain ⟨-, -, -, -, -, -, e0, -⟩ := idx_facts1 t
  refine congrArg (V c main_arg3) (funext fun a => Fin.ext ?_)
  match a with
  | ⟨0, _⟩ => show win1_3.index t (0 : Fin 1) * 16 + 1 * k.val = k.val; omega

/-- The weight matrix's block at every point is the whole matrix. -/
private theorem blk4_read (c : Dev nD) (t : Fin cfg1.N) (k : Fin 16) (f : Fin 2) :
    iblk1 (F := Ideal) V c 4 t (ix2 k f) = kinW2 V c (ix2 k f) := by
  show V c main_arg4 (((cfg1.win 4).blk t).view.emb (ix2 k f)) = V c main_arg4 (ix2 k f)
  obtain ⟨-, -, -, -, -, -, -, e0, e1, -⟩ := idx_facts1 t
  refine congrArg (V c main_arg4) (funext fun a => Fin.ext ?_)
  match a with
  | ⟨0, _⟩ => show win1_4.index t (0 : Fin 2) * 16 + 1 * k.val = k.val; omega
  | ⟨1, _⟩ => show win1_4.index t (1 : Fin 2) * 2 + 1 * f.val = f.val; omega

/-! ## The output array as one function of the inputs -/

/-- Row `n`, class `f` of the output, as a function of the launch's five input arrays. -/
private def rowOut (c : Dev nD) (n : Fin 100000) (f : Fin 2) : EReal :=
  ∑ k : Fin 16,
    max (kin21 V c (ix2 n (0 : Fin 1)) * kin22 V c (ix2 n (0 : Fin 1)) * kinW1 V c (ix2 (0 : Fin 1) k) + kinB1 V c (ix1 k)) 0
      * kin22 V c (ix2 n (0 : Fin 1)) * kinW2 V c (ix2 k f)

/-- The whole output array: `rowOut` at the index's two coordinates. Kept closed, and opened only through
    `wholeOut_apply`, so that no comparison of terms unfolds the sum. -/
@[irreducible] private def wholeOut (c : Dev nD) : S100000x2.Idx → EReal :=
  fun i => rowOut V c ⟨(i 0).val, idx2_lt0 i⟩ ⟨(i 1).val, idx2_lt1 i⟩

private theorem wholeOut_apply (c : Dev nD) (i : S100000x2.Idx) (n : Fin 100000) (f : Fin 2)
    (h0 : (i 0).val = n.val) (h1 : (i 1).val = f.val) : wholeOut V c i = rowOut V c n f := by
  unfold wholeOut
  exact congrArg₂ (rowOut V c) (Fin.ext h0) (Fin.ext h1)

/-- What grid point `t` writes back is rows `5000 t … 5000 t + 4999` of `wholeOut`: the body's one store covers its
    whole block, its loads read the whole loaded blocks, and entry (p, f) of the stored block is the arithmetic above of
    the loaded blocks, each read where it lies in its array. -/
private theorem flushed1_eq (c : Dev nD) (t : Fin cfg1.N) :
    (dat1 (F := Ideal) V c).flushed 5 t = ((cfg1.win 5).blk t).view.read (Elt Ideal) (wholeOut V c) := by
  show (cfg1.win 5).cut (grid1.coords t) ((dat1 V c).after 5 t) = _
  rw [after1_5]
  unfold out1_5
  rw [View.canon_unit_zero hz2]
  simp only [View.ld_unit_zero (S := S5000x1) hz2, View.ld_unit_zero (S := S1x16) hz2, View.ld_unit_zero (S := S16) hz1,
    View.ld_unit_zero (S := S16x2) hz2]
  funext j
  have hp : (j 0).val < 5000 := (j 0).isLt
  have hq : (j 1).val < 2 := (j 1).isLt
  have ht : t.val < 20 := t.isLt
  obtain ⟨-, -, -, -, -, -, -, -, -, e0, e1⟩ := idx_facts1 t
  refine (pay1_at (iblk1 V c 0 t) (iblk1 V c 1 t) (iblk1 V c 2 t) (iblk1 V c 3 t) (iblk1 V c 4 t)
    ((cfg1.win 5).xinj (grid1.coords t) j) ⟨(j 0).val, hp⟩ ⟨(j 1).val, hq⟩ rfl rfl).trans ?_
  show _ = wholeOut V c (((cfg1.win 5).blk t).view.emb j)
  have er : wholeOut V c (((cfg1.win 5).blk t).view.emb j)
      = rowOut V c ⟨t.val * 5000 + (j 0).val, by omega⟩ ⟨(j 1).val, hq⟩ := by
    refine wholeOut_apply V c _ _ _ ?_ ?_
    · show win1_5.index t (0 : Fin 2) * 5000 + 1 * (j 0).val = t.val * 5000 + (j 0).val; omega
    · show win1_5.index t (1 : Fin 2) * 2 + 1 * (j 1).val = (j 1).val; omega
  rw [er]
  unfold rowOut
  refine Finset.sum_congr rfl fun k _ => ?_
  rw [blk0_read V c t ⟨(j 0).val, hp⟩ ⟨t.val * 5000 + (j 0).val, by omega⟩ rfl,
    blk1_read V c t ⟨(j 0).val, hp⟩ ⟨t.val * 5000 + (j 0).val, by omega⟩ rfl, blk2_read V c t k, blk3_read V c t k,
    blk4_read V c t k ⟨(j 1).val, hq⟩]

/-- An index of the output array is in point `t`'s block iff each coordinate is in the block's range on its axis. -/
private theorem mem_blk1 (t : Fin cfg1.N) (i : S100000x2.Idx) :
    i ∈ ((cfg1.win 5).blk t).view.set ↔ ∀ a : Fin 2, win1_5.index t a * S5000x2.size a ≤ (i a).val
      ∧ (i a).val < win1_5.index t a * S5000x2.size a + S5000x2.size a := by
  show i ∈ ((View.whole main_v23).slice (win1_5.rect t)).set ↔ _
  rw [View.set_slice_whole, Rect.mem_set_unit]
  exact Iff.rfl

/-- The twenty blocks tile the array: row `r` is in the block of point `r / 5000`. -/
private theorem cover1 (i : S100000x2.Idx) :
    ∃ t : Fin cfg1.N, (cfg1.win 5).flush t = true ∧ i ∈ ((cfg1.win 5).blk t).view.set := by
  have hi0 : (i 0).val < 100000 := (i 0).isLt
  have hi1 : (i 1).val < 2 := (i 1).isLt
  obtain ⟨t, ht⟩ : ∃ t : Fin cfg1.N, t.val = (i 0).val / 5000 :=
    ⟨⟨(i 0).val / 5000, by show _ < 20; omega⟩, rfl⟩
  obtain ⟨-, -, -, -, -, -, -, -, -, e0, e1⟩ := idx_facts1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 2 ≤ (i 1).val ∧ (i 1).val < win1_5.index t (1 : Fin 2) * 2 + 2
    omega

/-- So after the launch the output array is `wholeOut`. -/
private theorem out1_eq (c : Dev nD) : (dat1 (F := Ideal) V c).arrAt 5 cfg1.N = wholeOut V c :=
  (dat1 V c).arrAt_eq_of_cover 5 (wholeOut V c) (fun t _ => flushed1_eq V c t) cover1

/-- The second launch's output at node `n`, class `f`. -/
theorem region1_out (c : Dev nD) (n : Fin 100000) (f : Fin 2) :
    kout1 V c (ix2 n f)
      = ∑ k : Fin 16,
          max (kin21 V c (ix2 n (0 : Fin 1)) * kin22 V c (ix2 n (0 : Fin 1)) * kinW1 V c (ix2 (0 : Fin 1) k) + kinB1 V c (ix1 k)) 0
            * kin22 V c (ix2 n (0 : Fin 1)) * kinW2 V c (ix2 k f) := by
  show (dat1 (F := Ideal) V c).arrAt 5 cfg1.N (ix2 n f) = _
  rw [out1_eq]
  exact wholeOut_apply V c (ix2 n f) n f rfl rfl

end Cert.KernelIdeal.Hand

end
-- ==== Proof.KRegion2.lean ====
/-
  The third launch (twenty grid points, blocks of 5000 node rows): what its output array holds once it has run.
  Entry `(n, f)` is the aggregated message times the node's degree scale plus the bias.
-/
import proofs.«407811_j67078799229060_3_alg».proof.Proof.KArrays
import proofs.«407811_j67078799229060_3_alg».proof.Proof.GcnIndex
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- A `[a, 1]` column broadcast to `[a, b]` reads, at `(p, c)`, the column at row `p`. -/
private theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p`, class `q`: the aggregated entry times the row's scale, plus the class's bias. -/
private theorem postscale_at (x0 : Vec Ideal S5000x2 .f32) (x1 : Vec Ideal S5000x1 .f32) (x2 : Vec Ideal S2 .f32)
    (p : Fin 5000) (q : Fin 2) :
    k2_pay1 (F := Ideal) x0 x1 x2 (ix2 p q) = (x0 (ix2 p q) : EReal) * x1 (ix2 p (0 : Fin 1)) + x2 (ix1 q) := by
  unfold k2_pay1
  rw [shapeCast_self, shapeCast_self]
  refine (addf_apply _ _ _).trans ?_
  refine congrArg₂ (· + ·) ((mulf_apply _ _ _).trans (congrArg (x0 (ix2 p q) * ·) ?_)) ?_
  · exact broadcastTo_col_apply x1 broadcasts_S5000x1_S5000x2 p q
  · exact (broadcastTo_1b_ab_apply _ broadcasts_S1x2_S5000x2 p q).trans
      (shapeCast_a_1a_apply x2 shapeCasts_S2_S1x2 (0 : Fin 1) q)

/-- The offset of a whole-block access is zero on both axes. -/
private theorem zeroOff2 : (![0, 0] : Fin 2 → Nat) = fun _ => 0 := funext fun a => by fin_cases a <;> rfl
/-- The offset of a whole-vector access is zero. -/
private theorem zeroOff1 : (![0] : Fin 1 → Nat) = fun _ => 0 := funext fun a => by fin_cases a; rfl

/-- What the output array holds once the launch has run: entry by entry, the aggregated entry times its row's scale,
    plus its column's bias. -/
private abbrev postscaled (c : Dev nD) : S100000x2.Idx → EReal := fun i =>
  kin27 V c i * kin28 V c (ix2 ⟨(i 0).val, idx2_lt0 i⟩ (0 : Fin 1)) + kinB2 V c (ix1 ⟨(i 1).val, idx2_lt1 i⟩)

/-- The printed index maps, decided over the twenty points: the two row-blocked inputs move with the output's row
    block, which is the point's own number; every column block is block zero. -/
private theorem blockIdx_facts : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 1) = 0
    ∧ win2_3.index t (1 : Fin 2) = 0
    ∧ win2_3.index t (0 : Fin 2) = t.val :=
  (by decide +kernel : ∀ t : Fin grid2.N, _)

/-- What point `t` writes back is block `t` of `postscaled`. -/
private theorem flushed_postscaled (c : Dev nD) (t : Fin cfg2.N) :
    (dat2 (F := Ideal) V c).flushed 3 t = ((cfg2.win 3).blk t).view.read (Elt Ideal) (postscaled V c) := by
  show (cfg2.win 3).cut (grid2.coords t) ((dat2 (F := Ideal) V c).after 3 t) = _
  rw [after2_3]
  unfold out2_3
  rw [View.canon_unit_zero zeroOff2]
  simp only [View.ld_unit_zero (S := S5000x2) zeroOff2, View.ld_unit_zero (S := S5000x1) zeroOff2, View.ld_unit_zero (S := S2) zeroOff1]
  obtain ⟨e0, e1, e2, e3, e4, e5, e6⟩ := blockIdx_facts t
  refine funext fun (j : S5000x2.Idx) => ?_
  show k2_pay1 (F := Ideal) (iblk2 V c 0 t) (iblk2 V c 1 t) (iblk2 V c 2 t) j = postscaled V c (((cfg2.win 3).blk t).view.emb j)
  obtain ⟨p, q, rfl⟩ : ∃ (p : Fin 5000) (q : Fin 2), j = ix2 p q := ⟨j 0, j 1, eq_ix2 j⟩
  refine (postscale_at _ _ _ p q).trans ?_
  show kin27 V c (((cfg2.win 0).blk t).view.emb (ix2 p q)) * kin28 V c (((cfg2.win 1).blk t).view.emb (ix2 p (0 : Fin 1)))
      + kinB2 V c (((cfg2.win 2).blk t).view.emb (ix1 q)) = postscaled V c (((cfg2.win 3).blk t).view.emb (ix2 p q))
  have ht : t.val < 20 := t.isLt
  have hp : p.val < 5000 := p.isLt
  have h3 : ((cfg2.win 3).blk t).view.emb (ix2 p q) = ix2 (⟨t.val * 5000 + p.val, by omega⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 2 + 1 * q.val = q.val; omega
  have h0 : ((cfg2.win 0).blk t).view.emb (ix2 p q) = ix2 (⟨t.val * 5000 + p.val, by omega⟩ : Fin 100000) q := by
    funext a; apply Fin.ext
    match a with
    | ⟨0, _⟩ => show win2_0.index t (0 : Fin 2) * 5000 + 1 * p.val = t.val * 5000 + p.val; omega
    | ⟨1, _⟩ => show win2_0.index t (1 : Fin 2) * 2 + 1 * q.val = q.val; omega
  have h1 : ((cfg2.win 1).blk t).view.emb (ix2 p (0 : Fin 1))
      = ix2 (⟨t.val * 5000 + p.val, by omega⟩ : Fin 100000) (0 : Fin 1) := by
    funext a; apply Fin.ext
    match a with
    | ⟨0, _⟩ => show win2_1.index t (0 : Fin 2) * 5000 + 1 * p.val = t.val * 5000 + p.val; omega
    | ⟨1, _⟩ => show win2_1.index t (1 : Fin 2) * 1 + 1 * 0 = 0; omega
  have h2 : ((cfg2.win 2).blk t).view.emb (ix1 q) = ix1 q := by
    funext a; apply Fin.ext
    match a with
    | ⟨0, _⟩ => show win2_2.index t (0 : Fin 1) * 2 + 1 * q.val = q.val; omega
  rw [h0, h1, h2, h3]

/-- An index of the array is in point `t`'s block iff each coordinate is in the block's range on its axis. -/
private theorem mem_outBlock (t : Fin cfg2.N) (i : S100000x2.Idx) :
    i ∈ ((cfg2.win 3).blk t).view.set ↔ ∀ a : Fin 2, win2_3.index t a * S5000x2.size a ≤ (i a).val
      ∧ (i a).val < win2_3.index t a * S5000x2.size a + S5000x2.size a := by
  show i ∈ ((View.whole main_v29).slice (win2_3.rect t)).set ↔ _
  rw [View.set_slice_whole, Rect.mem_set_unit]
  exact Iff.rfl

/-- Every entry of the array lies in some point's block: row `r` in the block of point `r / 5000`. -/
private theorem outBlocks_cover (i : S100000x2.Idx) :
    ∃ t : Fin cfg2.N, (cfg2.win 3).flush t = true ∧ i ∈ ((cfg2.win 3).blk t).view.set := by
  have hi0 : (i 0).val < 100000 := idx2_lt0 i
  have hi1 : (i 1).val < 2 := idx2_lt1 i
  have hq : (i 0).val / 5000 < 20 := by omega
  refine ⟨⟨(i 0).val / 5000, hq⟩, flush2_3 _, ?_⟩
  rw [mem_outBlock]
  obtain ⟨e0, e1, e2, e3, e4, e5, e6⟩ := blockIdx_facts ⟨(i 0).val / 5000, hq⟩
  have e6' : win2_3.index ⟨(i 0).val / 5000, hq⟩ (0 : Fin 2) = (i 0).val / 5000 := e6
  intro a
  match a with
  | ⟨0, _⟩ =>
    show win2_3.index ⟨(i 0).val / 5000, _⟩ (0 : Fin 2) * 5000 ≤ (i 0).val
      ∧ (i 0).val < win2_3.index ⟨(i 0).val / 5000, _⟩ (0 : Fin 2) * 5000 + 5000
    omega
  | ⟨1, _⟩ =>
    show win2_3.index ⟨(i 0).val / 5000, _⟩ (1 : Fin 2) * 2 ≤ (i 1).val
      ∧ (i 1).val < win2_3.index ⟨(i 0).val / 5000, _⟩ (1 : Fin 2) * 2 + 2
    omega

/-- The third launch's output at node `n`, class `f`. -/
theorem region2_out (c : Dev nD) (n : Fin 100000) (f : Fin 2) :
    kout2 V c (ix2 n f) = kin27 V c (ix2 n f) * kin28 V c (ix2 n (0 : Fin 1)) + kinB2 V c (ix1 f) := by
  have hfin : (dat2 (F := Ideal) V c).arrAt 3 cfg2.N = postscaled V c :=
    (dat2 (F := Ideal) V c).arrAt_eq_of_cover 3 (postscaled V c) (fun t _ => flushed_postscaled V c t) outBlocks_cover
  exact congrFun hfin (ix2 n f)

end Cert.KernelIdeal.Hand

end
-- ==== Proof.GcnAlgebra.lean ====
/-
  The algebra of the two graph-convolution layers, over abstract finite index sets.

  A graph has nodes `ι` and edges `ε`; edge `e` reads node `srcN e`, and `J n` is the set of edges that land on node `n`.
  Every node carries a scale `dinv n` (the inverse square root of its in-degree). One layer of the reference sends along
  edge `e` the transformed feature of its source scaled by `dinv (src e) · dinv (dst e)` and sums what lands on each node;
  the kernel scales every node's feature by `dinv` once before the sum and once after it. Because the first layer's
  input has ONE feature, its weight row `w1` also moves out of the sum. Over the reals the two are the same number by
  distributivity of multiplication over a finite sum; on the extended reals that law needs every term finite, which is
  what the hypotheses say.
-/
import Idealize.ShloMosaic.PureOps.Ideal

noncomputable section

open scoped BigOperators

namespace Cert.Gcn

variable {ι ε κ φ : Type} [Fintype κ]

/-- The kernel's hidden layer at node `n`, feature `k`: the sum over the edges landing on `n` of the pre-scaled source
    inputs, post-scaled by `dinv n`, times the weight, plus the bias, clipped at zero. -/
def hidK (J : ι → Finset ε) (srcN : ε → ι) (dinv x : ι → EReal) (w1 b1 : κ → EReal) (n : ι) (k : κ) : EReal :=
  max ((0 + ∑ e ∈ J n, x (srcN e) * dinv (srcN e)) * dinv n * w1 k + b1 k) 0

/-- The kernel's output at node `n`, class `f`: the second layer's pre-scaled products summed over the edges landing on
    `n`, post-scaled, plus the bias. -/
def outK (J : ι → Finset ε) (srcN : ε → ι) (dinv x : ι → EReal) (w1 b1 : κ → EReal) (w2 : κ → φ → EReal)
    (b2 : φ → EReal) (n : ι) (f : φ) : EReal :=
  (0 + ∑ e ∈ J n, ∑ k, hidK J srcN dinv x w1 b1 (srcN e) k * dinv (srcN e) * w2 k f) * dinv n + b2 f

/-- The reference's hidden layer: every edge's message is the source's transformed feature times the edge's norm
    `dinv (src e) · dinv (dst e)` (`dstC e` is the node the reference's gather reads for the edge's target). -/
def hidR (J : ι → Finset ε) (srcN dstC : ε → ι) (dinv x : ι → EReal) (w1 b1 : κ → EReal) (n : ι) (k : κ) : EReal :=
  max ((0 + ∑ e ∈ J n, x (srcN e) * w1 k * (dinv (srcN e) * dinv (dstC e))) + b1 k) 0

/-- The reference's output. -/
def outR (J : ι → Finset ε) (srcN dstC : ε → ι) (dinv x : ι → EReal) (w1 b1 : κ → EReal) (w2 : κ → φ → EReal)
    (b2 : φ → EReal) (n : ι) (f : φ) : EReal :=
  (0 + ∑ e ∈ J n, (∑ k, hidR J srcN dstC dinv x w1 b1 (srcN e) k * w2 k f) * (dinv (srcN e) * dinv (dstC e))) + b2 f

/-- The coercion of the reals into the extended reals commutes with finite sums. -/
private theorem coe_sum {α : Type} (s : Finset α) (g : α → ℝ) :
    ((∑ a ∈ s, g a : ℝ) : EReal) = ∑ a ∈ s, (g a : EReal) := by
  classical
  induction s using Finset.induction_on with
  | empty => simp
  | insert a s ha ih => rw [Finset.sum_insert ha, Finset.sum_insert ha, EReal.coe_add, ih]

/-- The coercion is monotone, so it commutes with `max`. -/
private theorem coe_max (r s : ℝ) : ((max r s : ℝ) : EReal) = max (r : EReal) (s : EReal) :=
  EReal.coe_strictMono.monotone.map_max

/-- The kernel's hidden layer over the reals. -/
private def hidKr (J : ι → Finset ε) (srcN : ε → ι) (dinv x : ι → ℝ) (w1 b1 : κ → ℝ) (n : ι) (k : κ) : ℝ :=
  max ((0 + ∑ e ∈ J n, x (srcN e) * dinv (srcN e)) * dinv n * w1 k + b1 k) 0

/-- The kernel's output over the reals. -/
private def outKr (J : ι → Finset ε) (srcN : ε → ι) (dinv x : ι → ℝ) (w1 b1 : κ → ℝ) (w2 : κ → φ → ℝ)
    (b2 : φ → ℝ) (n : ι) (f : φ) : ℝ :=
  (0 + ∑ e ∈ J n, ∑ k, hidKr J srcN dinv x w1 b1 (srcN e) k * dinv (srcN e) * w2 k f) * dinv n + b2 f

/-- The reference's hidden layer over the reals. -/
private def hidRr (J : ι → Finset ε) (srcN dstC : ε → ι) (dinv x : ι → ℝ) (w1 b1 : κ → ℝ) (n : ι) (k : κ) : ℝ :=
  max ((0 + ∑ e ∈ J n, x (srcN e) * w1 k * (dinv (srcN e) * dinv (dstC e))) + b1 k) 0

/-- The reference's output over the reals. -/
private def outRr (J : ι → Finset ε) (srcN dstC : ε → ι) (dinv x : ι → ℝ) (w1 b1 : κ → ℝ) (w2 : κ → φ → ℝ)
    (b2 : φ → ℝ) (n : ι) (f : φ) : ℝ :=
  (0 + ∑ e ∈ J n, (∑ k, hidRr J srcN dstC dinv x w1 b1 (srcN e) k * w2 k f) * (dinv (srcN e) * dinv (dstC e))) + b2 f

/-- On real inputs the kernel's hidden layer is the coercion of its real version. -/
private theorem hidK_coe (J : ι → Finset ε) (srcN : ε → ι) (dinv x : ι → ℝ) (w1 b1 : κ → ℝ) (n : ι) (k : κ) :
    hidK J srcN (fun i => (dinv i : EReal)) (fun i => (x i : EReal)) (fun k => (w1 k : EReal))
      (fun k => (b1 k : EReal)) n k = ((hidKr J srcN dinv x w1 b1 n k : ℝ) : EReal) := by
  simp only [hidK, hidKr, coe_max, coe_sum, EReal.coe_add, EReal.coe_mul, EReal.coe_zero]

/-- On real inputs the reference's hidden layer is the coercion of its real version. -/
private theorem hidR_coe (J : ι → Finset ε) (srcN dstC : ε → ι) (dinv x : ι → ℝ) (w1 b1 : κ → ℝ) (n : ι) (k : κ) :
    hidR J srcN dstC (fun i => (dinv i : EReal)) (fun i => (x i : EReal)) (fun k => (w1 k : EReal))
      (fun k => (b1 k : EReal)) n k = ((hidRr J srcN dstC dinv x w1 b1 n k : ℝ) : EReal) := by
  simp only [hidR, hidRr, coe_max, coe_sum, EReal.coe_add, EReal.coe_mul, EReal.coe_zero]

/-- On real inputs the kernel's output is the coercion of its real version. -/
private theorem outK_coe (J : ι → Finset ε) (srcN : ε → ι) (dinv x : ι → ℝ) (w1 b1 : κ → ℝ) (w2 : κ → φ → ℝ)
    (b2 : φ → ℝ) (n : ι) (f : φ) :
    outK J srcN (fun i => (dinv i : EReal)) (fun i => (x i : EReal)) (fun k => (w1 k : EReal))
      (fun k => (b1 k : EReal)) (fun k f => (w2 k f : EReal)) (fun f => (b2 f : EReal)) n f
      = ((outKr J srcN dinv x w1 b1 w2 b2 n f : ℝ) : EReal) := by
  simp only [outK, outKr, hidK_coe, coe_sum, EReal.coe_add, EReal.coe_mul, EReal.coe_zero]

/-- On real inputs the reference's output is the coercion of its real version. -/
private theorem outR_coe (J : ι → Finset ε) (srcN dstC : ε → ι) (dinv x : ι → ℝ) (w1 b1 : κ → ℝ) (w2 : κ → φ → ℝ)
    (b2 : φ → ℝ) (n : ι) (f : φ) :
    outR J srcN dstC (fun i => (dinv i : EReal)) (fun i => (x i : EReal)) (fun k => (w1 k : EReal))
      (fun k => (b1 k : EReal)) (fun k f => (w2 k f : EReal)) (fun f => (b2 f : EReal)) n f
      = ((outRr J srcN dstC dinv x w1 b1 w2 b2 n f : ℝ) : EReal) := by
  simp only [outR, outRr, hidR_coe, coe_sum, EReal.coe_add, EReal.coe_mul, EReal.coe_zero]

/-- Over the reals the two hidden layers agree: on the edges landing on `n` the target's scale is `dinv n`, a
    constant, and it and the weight move out of the sum by distributivity. -/
private theorem hidKr_eq_hidRr (J : ι → Finset ε) (srcN dstC : ε → ι) (dinv x : ι → ℝ) (w1 b1 : κ → ℝ)
    (hJ : ∀ n, ∀ e ∈ J n, dstC e = n) (n : ι) (k : κ) :
    hidKr J srcN dinv x w1 b1 n k = hidRr J srcN dstC dinv x w1 b1 n k := by
  have h : (∑ e ∈ J n, x (srcN e) * dinv (srcN e)) * dinv n * w1 k
      = ∑ e ∈ J n, x (srcN e) * w1 k * (dinv (srcN e) * dinv (dstC e)) := by
    rw [Finset.sum_mul, Finset.sum_mul]
    refine Finset.sum_congr rfl (fun e he => ?_)
    rw [hJ n e he]
    ring
  unfold hidKr hidRr
  rw [zero_add, zero_add, h]

/-- Over the reals the two outputs agree, by the same distributivity one layer up. -/
private theorem outKr_eq_outRr (J : ι → Finset ε) (srcN dstC : ε → ι) (dinv x : ι → ℝ) (w1 b1 : κ → ℝ)
    (w2 : κ → φ → ℝ) (b2 : φ → ℝ) (hJ : ∀ n, ∀ e ∈ J n, dstC e = n) (n : ι) (f : φ) :
    outKr J srcN dinv x w1 b1 w2 b2 n f = outRr J srcN dstC dinv x w1 b1 w2 b2 n f := by
  have h : (∑ e ∈ J n, ∑ k, hidKr J srcN dinv x w1 b1 (srcN e) k * dinv (srcN e) * w2 k f) * dinv n
      = ∑ e ∈ J n, (∑ k, hidRr J srcN dstC dinv x w1 b1 (srcN e) k * w2 k f)
          * (dinv (srcN e) * dinv (dstC e)) := by
    rw [Finset.sum_mul]
    refine Finset.sum_congr rfl (fun e he => ?_)
    rw [hJ n e he, Finset.sum_mul, Finset.sum_mul]
    refine Finset.sum_congr rfl (fun k _ => ?_)
    rw [hidKr_eq_hidRr J srcN dstC dinv x w1 b1 hJ]
    ring
  unfold outKr outRr
  rw [zero_add, zero_add, h]

/-- With every input a real number, and every edge landing on `n` having `n` as the target its gather reads, the
    kernel's output is the reference's. -/
theorem outK_eq_outR (J : ι → Finset ε) (srcN dstC : ε → ι) (dinv x : ι → EReal) (w1 b1 : κ → EReal)
    (w2 : κ → φ → EReal) (b2 : φ → EReal)
    (hJ : ∀ n, ∀ e ∈ J n, dstC e = n)
    (hd : ∀ i, ∃ r : ℝ, dinv i = (r : EReal)) (hx : ∀ i, ∃ r : ℝ, x i = (r : EReal))
    (hw1 : ∀ k, ∃ r : ℝ, w1 k = (r : EReal)) (hb1 : ∀ k, ∃ r : ℝ, b1 k = (r : EReal))
    (hw2 : ∀ k f, ∃ r : ℝ, w2 k f = (r : EReal)) (hb2 : ∀ f, ∃ r : ℝ, b2 f = (r : EReal)) (n : ι) (f : φ) :
    outK J srcN dinv x w1 b1 w2 b2 n f = outR J srcN dstC dinv x w1 b1 w2 b2 n f := by
  choose d hd using hd
  choose xr hx using hx
  choose w1r hw1 using hw1
  choose b1r hb1 using hb1
  choose w2r hw2 using hw2
  choose b2r hb2 using hb2
  obtain rfl : dinv = fun i => (d i : EReal) := funext hd
  obtain rfl : x = fun i => (xr i : EReal) := funext hx
  obtain rfl : w1 = fun k => (w1r k : EReal) := funext hw1
  obtain rfl : b1 = fun k => (b1r k : EReal) := funext hb1
  obtain rfl : w2 = fun k f => (w2r k f : EReal) := funext fun k => funext (hw2 k)
  obtain rfl : b2 = fun f => (b2r f : EReal) := funext hb2
  rw [outK_coe, outR_coe, outKr_eq_outRr J srcN dstC d xr w1r b1r w2r b2r hJ]

end Cert.Gcn

end
-- ==== Proof.KValue.lean ====
/-
  The kernel program's result at node `n`, class `f`, at the ideal instance, read through its three launches and the host
  operations between them: the first launch's degree scale and pre-scaled input, the summed messages, the second launch's
  hidden layer times the second weight matrix, the summed rows, and the third launch's post-scale and bias. The 100 × 1000
  and column layouts are re-labellings of the flat node index (row-major), which the entrywise launches commute with.
  Needs every source word to name a node: only there is the fill-mode take the plain read.
-/
import proofs.«407811_j67078799229060_3_alg».proof.Proof.Gen.KernelIdeal.Frame
import proofs.«407811_j67078799229060_3_alg».proof.Proof.KArrays
import proofs.«407811_j67078799229060_3_alg».proof.Proof.KTerms
import proofs.«407811_j67078799229060_3_alg».proof.Proof.KTake
import proofs.«407811_j67078799229060_3_alg».proof.Proof.KStretch1
import proofs.«407811_j67078799229060_3_alg».proof.Proof.KStretch2
import proofs.«407811_j67078799229060_3_alg».proof.Proof.KRegion0
import proofs.«407811_j67078799229060_3_alg».proof.Proof.KRegion1
import proofs.«407811_j67078799229060_3_alg».proof.Proof.KRegion2
import proofs.«407811_j67078799229060_3_alg».proof.Proof.GcnIndex
import proofs.«407811_j67078799229060_3_alg».proof.Proof.GcnAlgebra
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

section Helpers

/-! ## The layouts are re-labellings of the flat node index

A reshape reads its operand at the index with the same row-major position. Node `i` sits at row `i / 1000`, column
`i % 1000` of the 100 × 1000 layout, and at `(i, 0)` of the column layout. -/

/-- The flat array laid out 100 × 1000, read at `(r, q)`, is the flat array at `1000 r + q`. -/
private theorem grid_of_flat_apply {α : Type} (x : S100000.Idx → α) (h : S100000.ShapeCasts S100x1000)
    (r : Fin 100) (q : Fin 1000) (i : Fin 100000) (hi : i.val = r.val * 1000 + q.val) :
    shapeCast S100x1000 x h (ix2 r q) = x (ix1 i) :=
  shapeCast_apply x h (ix2 r q) (ix1 i) (by
    rw [Shape.rowMajor_val_two, Shape.rowMajor_val_one]
    show i.val = r.val * 1000 + q.val
    exact hi)

/-- The 100 × 1000 array laid out flat, read at `1000 r + q`, is the array at `(r, q)`. -/
private theorem flat_of_grid_apply {α : Type} (x : S100x1000.Idx → α) (h : S100x1000.ShapeCasts S100000)
    (r : Fin 100) (q : Fin 1000) (i : Fin 100000) (hi : i.val = r.val * 1000 + q.val) :
    shapeCast S100000 x h (ix1 i) = x (ix2 r q) :=
  shapeCast_apply x h (ix1 i) (ix2 r q) (by
    rw [Shape.rowMajor_val_two, Shape.rowMajor_val_one]
    show r.val * 1000 + q.val = i.val
    exact hi.symm)

/-- The flat array as a column, read at `(i, 0)`, is the flat array at `i`. -/
private theorem col_of_flat_apply {α : Type} (x : S100000.Idx → α) (h : S100000.ShapeCasts S100000x1)
    (i : Fin 100000) (u : Fin 1) : shapeCast S100000x1 x h (ix2 i u) = x (ix1 i) :=
  shapeCast_apply x h (ix2 i u) (ix1 i) (by
    have hu : u.val = 0 := by omega
    rw [Shape.rowMajor_val_two, Shape.rowMajor_val_one]
    show i.val = i.val * 1 + u.val
    rw [hu, Nat.mul_one, Nat.add_zero])

/-- The column laid out flat, read at `i`, is the column at `(i, 0)`. -/
private theorem flat_of_col_apply {α : Type} (x : S100000x1.Idx → α) (h : S100000x1.ShapeCasts S100000)
    (i : Fin 100000) : shapeCast S100000 x h (ix1 i) = x (ix2 i (0 : Fin 1)) :=
  shapeCast_apply x h (ix1 i) (ix2 i (0 : Fin 1)) (by
    rw [Shape.rowMajor_val_two, Shape.rowMajor_val_one]
    show i.val * 1 + 0 = i.val
    rw [Nat.mul_one, Nat.add_zero])

variable (m : (ℓ : Loc nD τ sig) → Buf (Elt Ideal) ℓ) (ρ : Dev nD → PrngReg) (c : Dev nD)

/-! ## The buffers carried from stretch to stretch

The source and target words are computed before the first launch and read by both later stretches; no launch and no
later host operation writes them. The arguments are never written. -/

/-- Before the first launch: the source words. -/
private theorem W1_v3 : (W1 (F := Ideal) m ρ c (Proc.devRef .tc main_v3) : IVec S3300000 32)
    = srcT (m ((c.tc : Thread nD τ).loc main_arg1)) :=
  s0_v3 (F := Ideal) (W0 m ρ c)

/-- Before the first launch: the target words. -/
private theorem W1_v6 : (W1 (F := Ideal) m ρ c (Proc.devRef .tc main_v6) : IVec S3300000 32)
    = dstT (m ((c.tc : Thread nD τ).loc main_arg1)) :=
  s0_v6 (F := Ideal) (W0 m ρ c)

/-- The first launch's degree input. -/
private theorem W1_v12 : (W1 (F := Ideal) m ρ c (Proc.devRef .tc main_v12) : FVec Ideal S100x1000 .f32)
    = shapeCast S100x1000 (degT (F := Ideal) (m ((c.tc : Thread nD τ).loc main_arg1))) shapeCasts_S100000_S100x1000 :=
  s0_v12 (F := Ideal) (W0 m ρ c)

/-- The first launch's feature input. -/
private theorem W1_v13 : (W1 (F := Ideal) m ρ c (Proc.devRef .tc main_v13) : FVec Ideal S100x1000 .f32)
    = shapeCast S100x1000 (shapeCast S100000 (m ((c.tc : Thread nD τ).loc main_arg0) : FVec Ideal S100000x1 .f32)
        shapeCasts_S100000x1_S100000) shapeCasts_S100000_S100x1000 :=
  s0_v13 (F := Ideal) (W0 m ρ c)

/-- After the first launch the source words are as computed. -/
private theorem W2_v3 : (W2 (F := Ideal) m ρ c (Proc.devRef .tc main_v3) : IVec S3300000 32)
    = srcT (m ((c.tc : Thread nD τ).loc main_arg1)) :=
  (W2_of_ne m ρ c main_v3 (by decide)).trans (W1_v3 m ρ c)

/-- After the first launch the target words are as computed. -/
private theorem W2_v6 : (W2 (F := Ideal) m ρ c (Proc.devRef .tc main_v6) : IVec S3300000 32)
    = dstT (m ((c.tc : Thread nD τ).loc main_arg1)) :=
  (W2_of_ne m ρ c main_v6 (by decide)).trans (W1_v6 m ρ c)

/-- After the second launch the source words are as computed. -/
private theorem W6_v3 : (W6 (F := Ideal) m ρ c (Proc.devRef .tc main_v3) : IVec S3300000 32)
    = srcT (m ((c.tc : Thread nD τ).loc main_arg1)) :=
  (W6_of_ne m ρ c main_v3 (by decide)).trans ((s1_v3 (F := Ideal) (W2 m ρ c)).trans (W2_v3 m ρ c))

/-- After the second launch the target words are as computed. -/
private theorem W6_v6 : (W6 (F := Ideal) m ρ c (Proc.devRef .tc main_v6) : IVec S3300000 32)
    = dstT (m ((c.tc : Thread nD τ).loc main_arg1)) :=
  (W6_of_ne m ρ c main_v6 (by decide)).trans ((s1_v6 (F := Ideal) (W2 m ρ c)).trans (W2_v6 m ρ c))

/-- The first layer's weight row reaches the second launch as launched. -/
private theorem W5_arg2 : W5 (F := Ideal) m ρ c (Proc.devRef .tc main_arg2) = m ((c.tc : Thread nD τ).loc main_arg2) :=
  (s1_arg2 (F := Ideal) (W2 m ρ c)).trans ((W2_of_ne m ρ c main_arg2 (by decide)).trans (s0_arg2 (F := Ideal) (W0 m ρ c)))

/-- The first layer's bias reaches the second launch as launched. -/
private theorem W5_arg3 : W5 (F := Ideal) m ρ c (Proc.devRef .tc main_arg3) = m ((c.tc : Thread nD τ).loc main_arg3) :=
  (s1_arg3 (F := Ideal) (W2 m ρ c)).trans ((W2_of_ne m ρ c main_arg3 (by decide)).trans (s0_arg3 (F := Ideal) (W0 m ρ c)))

/-- The second layer's weight matrix reaches the second launch as launched. -/
private theorem W5_arg4 : W5 (F := Ideal) m ρ c (Proc.devRef .tc main_arg4) = m ((c.tc : Thread nD τ).loc main_arg4) :=
  (s1_arg4 (F := Ideal) (W2 m ρ c)).trans ((W2_of_ne m ρ c main_arg4 (by decide)).trans (s0_arg4 (F := Ideal) (W0 m ρ c)))

/-- The second layer's bias reaches the third launch as launched. -/
private theorem W8_arg5 : W8 (F := Ideal) m ρ c (Proc.devRef .tc main_arg5) = m ((c.tc : Thread nD τ).loc main_arg5) :=
  (s2_arg5 (F := Ideal) (W6 m ρ c)).trans ((W6_of_ne m ρ c main_arg5 (by decide)).trans
    ((s1_arg5 (F := Ideal) (W2 m ρ c)).trans ((W2_of_ne m ρ c main_arg5 (by decide)).trans (s0_arg5 (F := Ideal) (W0 m ρ c)))))

/-! ## The launches' output arrays, named -/

/-- The first launch leaves the degree scale in its first output. -/
private theorem W2_v14_0 : (W2 (F := Ideal) m ρ c (Proc.devRef .tc main_v14_0) : FVec Ideal S100x1000 .f32)
    = kout0a (V1 m ρ) c :=
  W2_arr m ρ c 2

/-- The first launch leaves the pre-scaled input in its second output. -/
private theorem W2_v14_1 : (W2 (F := Ideal) m ρ c (Proc.devRef .tc main_v14_1) : FVec Ideal S100x1000 .f32)
    = kout0b (V1 m ρ) c :=
  W2_arr m ρ c 3

/-- The second launch's output array. -/
private theorem W6_v23 : (W6 (F := Ideal) m ρ c (Proc.devRef .tc main_v23) : FVec Ideal S100000x2 .f32)
    = kout1 (V5 m ρ) c :=
  W6_arr m ρ c 5

/-- The third launch's output array. -/
private theorem W9_v29 : (W9 (F := Ideal) m ρ c (Proc.devRef .tc main_v29) : FVec Ideal S100000x2 .f32)
    = kout2 (V8 m ρ) c :=
  W9_arr m ρ c 3

/-! ## The graph's vocabulary, read off the launch memory -/

/-- The degree scale of node `i`. -/
private abbrev dA : Fin 100000 → EReal :=
  fun i => Cert.Gcn.dinvE (degT (F := Ideal) (m ((c.tc : Thread nD τ).loc main_arg1)) (ix1 i))
/-- The input feature of node `i`. -/
private abbrev xA : Fin 100000 → EReal :=
  fun i => (m ((c.tc : Thread nD τ).loc main_arg0) : FVec Ideal S100000x1 .f32) (ix2 i (0 : Fin 1))
/-- The first layer's weight row. -/
private abbrev w1A : Fin 16 → EReal :=
  fun k => (m ((c.tc : Thread nD τ).loc main_arg2) : FVec Ideal S1x16 .f32) (ix2 (0 : Fin 1) k)
/-- The first layer's bias. -/
private abbrev b1A : Fin 16 → EReal :=
  fun k => (m ((c.tc : Thread nD τ).loc main_arg3) : FVec Ideal S16 .f32) (ix1 k)
/-- The second layer's weight matrix. -/
private abbrev w2A : Fin 16 → Fin 2 → EReal :=
  fun k f => (m ((c.tc : Thread nD τ).loc main_arg4) : FVec Ideal S16x2 .f32) (ix2 k f)
/-- The second layer's bias. -/
private abbrev b2A : Fin 2 → EReal :=
  fun f => (m ((c.tc : Thread nD τ).loc main_arg5) : FVec Ideal S2 .f32) (ix1 f)
/-- The edges landing on a node. -/
private abbrev JA : Fin 100000 → Finset (Fin 3300000) :=
  Cert.Gcn.Jof (dstT (m ((c.tc : Thread nD τ).loc main_arg1)))
/-- The node an edge reads. -/
private abbrev sA : Fin 3300000 → Fin 100000 :=
  Cert.Gcn.srcN (srcT (m ((c.tc : Thread nD τ).loc main_arg1)))

/-! ## The first launch, flat -/

/-- Node `i`'s row and column in the 100 × 1000 layout. -/
private theorem split_node (i : Fin 100000) : ∃ (r : Fin 100) (q : Fin 1000), i.val = r.val * 1000 + q.val :=
  ⟨⟨i.val / 1000, by have := i.isLt; omega⟩, ⟨i.val % 1000, Nat.mod_lt _ (by decide)⟩, by
    show i.val = i.val / 1000 * 1000 + i.val % 1000
    omega⟩

/-- The first launch's degree input at `(r, q)` is the in-degree of node `1000 r + q`. -/
private theorem kin12_apply (r : Fin 100) (q : Fin 1000) (i : Fin 100000) (hi : i.val = r.val * 1000 + q.val) :
    kin12 (V1 m ρ) c (ix2 r q) = degT (F := Ideal) (m ((c.tc : Thread nD τ).loc main_arg1)) (ix1 i) :=
  (congrFun (W1_v12 m ρ c) (ix2 r q)).trans (grid_of_flat_apply _ _ r q i hi)

/-- The first launch's feature input at `(r, q)` is the input feature of node `1000 r + q`. -/
private theorem kin13_apply (r : Fin 100) (q : Fin 1000) (i : Fin 100000) (hi : i.val = r.val * 1000 + q.val) :
    kin13 (V1 m ρ) c (ix2 r q) = xA m c i :=
  (congrFun (W1_v13 m ρ c) (ix2 r q)).trans ((grid_of_flat_apply _ _ r q i hi).trans (flat_of_col_apply _ _ i))

/-- The degree scale laid out flat: what the later stretches read of the first launch's first output. -/
private theorem dinv_flat (i : Fin 100000) :
    shapeCast S100000 (W2 (F := Ideal) m ρ c (Proc.devRef .tc main_v14_0) : FVec Ideal S100x1000 .f32)
        shapeCasts_S100x1000_S100000 (ix1 i) = dA m c i := by
  obtain ⟨r, q, hi⟩ := split_node i
  refine (flat_of_grid_apply _ _ r q i hi).trans ?_
  refine (congrFun (W2_v14_0 m ρ c) (ix2 r q)).trans ?_
  refine (region0_dinv (V1 m ρ) c r q).trans ?_
  exact congrArg Cert.Gcn.dinvE (kin12_apply m ρ c r q i hi)

/-- The pre-scaled input laid out flat: the input feature times the degree scale. -/
private theorem xs_flat (i : Fin 100000) :
    shapeCast S100000 (W2 (F := Ideal) m ρ c (Proc.devRef .tc main_v14_1) : FVec Ideal S100x1000 .f32)
        shapeCasts_S100x1000_S100000 (ix1 i) = xA m c i * dA m c i := by
  obtain ⟨r, q, hi⟩ := split_node i
  refine (flat_of_grid_apply _ _ r q i hi).trans ?_
  refine (congrFun (W2_v14_1 m ρ c) (ix2 r q)).trans ?_
  refine (region0_xs (V1 m ρ) c r q).trans ?_
  rw [kin13_apply m ρ c r q i hi, kin12_apply m ρ c r q i hi]

/-- The flat degree scale that the third launch's stretch reads. -/
private theorem W5_v15_apply (i : Fin 100000) :
    (W5 (F := Ideal) m ρ c (Proc.devRef .tc main_v15) : FVec Ideal S100000 .f32) (ix1 i) = dA m c i :=
  (congrFun (s1_v15 (F := Ideal) (W2 m ρ c)) (ix1 i)).trans (dinv_flat m ρ c i)

/-! ## The second launch -/

/-- The second launch's message input is the scatter sum of the pre-scaled inputs taken at the source words. -/
private theorem W5_v21 : (W5 (F := Ideal) m ρ c (Proc.devRef .tc main_v21) : FVec Ideal S100000x1 .f32)
    = shapeCast S100000x1 (sumAt (F := Ideal) (dstT (m ((c.tc : Thread nD τ).loc main_arg1)))
        (takeV (F := Ideal) (shapeCast S100000 (W2 (F := Ideal) m ρ c (Proc.devRef .tc main_v14_1) : FVec Ideal S100x1000 .f32)
          shapeCasts_S100x1000_S100000) (srcT (m ((c.tc : Thread nD τ).loc main_arg1))))) shapeCasts_S100000_S100000x1 := by
  rw [← W2_v6 m ρ c, ← W2_v3 m ρ c]
  exact s1_v21 (F := Ideal) (W2 m ρ c)

/-- The summed messages at node `p`: over the edges landing on `p`, the source's input times the source's scale. -/
private theorem kin21_apply
    (hsrc : ∀ e : Fin 3200000, Cert.Gcn.InRange ((m ((c.tc : Thread nD τ).loc main_arg1) : IVec S2x3200000 32) (ix2 (0 : Fin 2) e)))
    (p : Fin 100000) :
    kin21 (V5 m ρ) c (ix2 p (0 : Fin 1))
      = 0 + ∑ e ∈ JA m c p, xA m c (sA m c e) * dA m c (sA m c e) := by
  refine (congrFun (W5_v21 m ρ c) (ix2 p (0 : Fin 1))).trans ?_
  refine (col_of_flat_apply _ _ p (0 : Fin 1)).trans ?_
  refine (sumAt_apply _ _ p).trans ?_
  refine congrArg (fun s : EReal => 0 + s) (Finset.sum_congr rfl fun e _ => ?_)
  refine (takeV_apply _ _ e (srcT_inRange _ hsrc e)).trans ?_
  exact xs_flat m ρ c (sA m c e)

/-- The second launch's scale input at node `p`. -/
private theorem kin22_apply (p : Fin 100000) : kin22 (V5 m ρ) c (ix2 p (0 : Fin 1)) = dA m c p :=
  (congrFun (s1_v22 (F := Ideal) (W2 m ρ c)) (ix2 p (0 : Fin 1))).trans
    ((col_of_flat_apply _ _ p (0 : Fin 1)).trans (dinv_flat m ρ c p))

/-- The second launch's weight row. -/
private theorem kinW1_apply (k : Fin 16) : kinW1 (V5 m ρ) c (ix2 (0 : Fin 1) k) = w1A m c k :=
  congrFun (W5_arg2 m ρ c) (ix2 (0 : Fin 1) k)

/-- The second launch's bias. -/
private theorem kinB1_apply (k : Fin 16) : kinB1 (V5 m ρ) c (ix1 k) = b1A m c k :=
  congrFun (W5_arg3 m ρ c) (ix1 k)

/-- The second launch's weight matrix. -/
private theorem kinW2_apply (k : Fin 16) (f : Fin 2) : kinW2 (V5 m ρ) c (ix2 k f) = w2A m c k f :=
  congrFun (W5_arg4 m ρ c) (ix2 k f)

/-- The second launch's output at node `p`, class `f`: the hidden layer pre-scaled and multiplied into the second
    weight matrix. -/
private theorem kout1_apply
    (hsrc : ∀ e : Fin 3200000, Cert.Gcn.InRange ((m ((c.tc : Thread nD τ).loc main_arg1) : IVec S2x3200000 32) (ix2 (0 : Fin 2) e)))
    (p : Fin 100000) (f : Fin 2) :
    kout1 (V5 m ρ) c (ix2 p f)
      = ∑ k : Fin 16, Cert.Gcn.hidK (JA m c) (sA m c) (dA m c) (xA m c) (w1A m c) (b1A m c) p k * dA m c p * w2A m c k f := by
  refine (region1_out (V5 m ρ) c p f).trans (Finset.sum_congr rfl fun k _ => ?_)
  rw [kin21_apply m ρ c hsrc p, kin22_apply m ρ c p, kinW1_apply m ρ c k, kinB1_apply m ρ c k, kinW2_apply m ρ c k f]
  unfold Cert.Gcn.hidK
  rfl

/-! ## The third launch -/

/-- The third launch's aggregate input is the scatter sum of the second launch's rows taken at the source words. -/
private theorem W8_v27 : (W8 (F := Ideal) m ρ c (Proc.devRef .tc main_v27) : FVec Ideal S100000x2 .f32)
    = sumAtR (F := Ideal) (dstT (m ((c.tc : Thread nD τ).loc main_arg1)))
        (takeR (F := Ideal) (kout1 (V5 m ρ) c) (srcT (m ((c.tc : Thread nD τ).loc main_arg1)))) := by
  rw [← W6_v6 m ρ c, ← W6_v3 m ρ c, ← W6_v23 m ρ c]
  exact s2_v27 (F := Ideal) (W6 m ρ c)

/-- The aggregated rows at node `n`, class `f`. -/
private theorem kin27_apply
    (hsrc : ∀ e : Fin 3200000, Cert.Gcn.InRange ((m ((c.tc : Thread nD τ).loc main_arg1) : IVec S2x3200000 32) (ix2 (0 : Fin 2) e)))
    (n : Fin 100000) (f : Fin 2) :
    kin27 (V8 m ρ) c (ix2 n f) = 0 + ∑ e ∈ JA m c n, kout1 (V5 m ρ) c (ix2 (sA m c e) f) := by
  refine (congrFun (W8_v27 m ρ c) (ix2 n f)).trans ?_
  refine (sumAtR_apply _ _ n f).trans ?_
  refine congrArg (fun s : EReal => 0 + s) (Finset.sum_congr rfl fun e _ => ?_)
  exact takeR_apply _ _ e f (srcT_inRange _ hsrc e)

/-- The third launch's scale input at node `n`. -/
private theorem kin28_apply (n : Fin 100000) : kin28 (V8 m ρ) c (ix2 n (0 : Fin 1)) = dA m c n :=
  (congrFun (s2_v28 (F := Ideal) (W6 m ρ c)) (ix2 n (0 : Fin 1))).trans
    ((col_of_flat_apply _ _ n (0 : Fin 1)).trans
      ((congrFun (W6_of_ne m ρ c main_v15 (by decide)) (ix1 n)).trans (W5_v15_apply m ρ c n)))

/-- The third launch's bias. -/
private theorem kinB2_apply (f : Fin 2) : kinB2 (V8 m ρ) c (ix1 f) = b2A m c f :=
  congrFun (W8_arg5 m ρ c) (ix1 f)

end Helpers

/-- The kernel program's result, entry by entry, in the vocabulary of the graph algebra. -/
theorem kernel_value (m : (ℓ : Loc nD τ sig) → Buf (Elt Ideal) ℓ) (ρ : Dev nD → PrngReg) (c : Dev nD)
    (hsrc : ∀ e : Fin 3200000, Cert.Gcn.InRange ((m ((c.tc : Thread nD τ).loc main_arg1) : IVec S2x3200000 32) (ix2 (0 : Fin 2) e)))
    (n : Fin 100000) (f : Fin 2) :
    (W9 (F := Ideal) m ρ c (Proc.devRef .tc main_v29) : FVec Ideal S100000x2 .f32) (ix2 n f)
      = Cert.Gcn.outK (Cert.Gcn.Jof (dstT (m ((c.tc : Thread nD τ).loc main_arg1))))
          (Cert.Gcn.srcN (srcT (m ((c.tc : Thread nD τ).loc main_arg1))))
          (fun i => Cert.Gcn.dinvE (degT (F := Ideal) (m ((c.tc : Thread nD τ).loc main_arg1)) (ix1 i)))
          (fun i => (m ((c.tc : Thread nD τ).loc main_arg0) : FVec Ideal S100000x1 .f32) (ix2 i (0 : Fin 1)))
          (fun k => (m ((c.tc : Thread nD τ).loc main_arg2) : FVec Ideal S1x16 .f32) (ix2 (0 : Fin 1) k))
          (fun k => (m ((c.tc : Thread nD τ).loc main_arg3) : FVec Ideal S16 .f32) (ix1 k))
          (fun k f => (m ((c.tc : Thread nD τ).loc main_arg4) : FVec Ideal S16x2 .f32) (ix2 k f))
          (fun f => (m ((c.tc : Thread nD τ).loc main_arg5) : FVec Ideal S2 .f32) (ix1 f)) n f := by
  refine (congrFun (W9_v29 m ρ c) (ix2 n f)).trans ?_
  refine (region2_out (V8 m ρ) c n f).trans ?_
  rw [kin27_apply m ρ c hsrc n f, kin28_apply m ρ c n, kinB2_apply m ρ c f]
  unfold Cert.Gcn.outK
  refine congrArg (fun s : EReal => (0 + s) * dA m c n + b2A m c f) (Finset.sum_congr rfl fun e _ => ?_)
  exact kout1_apply m ρ c hsrc (sA m c e) f

end Cert.KernelIdeal.Hand

end
-- ==== Proof.RTerms.lean ====
/-
  The reference program's edge lists and in-degree, as pure functions of the edge list: the source row and the target row
  each followed by the 100000 self-loops, and the number of edges landing on each node.
-/
import proofs.«407811_j67078799229060_3_alg».proof.ReferenceIdeal
import proofs.«407811_j67078799229060_3_alg».proof.Proof.Gen.ReferenceIdeal

noncomputable section

namespace Cert.ReferenceIdeal.Hand

open Cert.ReferenceIdeal Cert.ReferenceIdeal.Gen Idealize.ShloMosaic

variable {F : FTy → Type} [FloatOps F]

/-- The source words: the edge list's row 0, then the self-loops' `0, 1, …, 99999`. -/
def srcT (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0

/-- The target words: the edge list's row 1, then the self-loops. -/
def dstT (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- A list of words as the column of start indices a gather or scatter takes. -/
def colA (a : IVec S3300000 32) : IVec S3300000x1 32 := broadcastInDim S3300000x1 ![0] bcast_S3300000_S3300000x1_0 a

/-- The in-degree with self-loops: one per edge landing on the node. -/
def degT (ei : IVec S2x3200000 32) : FVec F S100000 .f32 :=
  Host.scatterAdd scatter_S100000_S3300000x1_S3300000_n_0_0_1 (broadcastInDim S100000 ![] bcast_S_S100000 (constant S_ .f32 0x00000000#32)) (colA (dstT ei)) (broadcastInDim S3300000 ![] bcast_S_S3300000 (constant S_ .f32 0x3F800000#32))

end Cert.ReferenceIdeal.Hand

end
-- ==== Proof.RefValue.lean ====
/-
  The reference program's result at node `n`, class `f`, at the ideal instance: two rounds of "transform, scale every
  edge's message by `dinv (src) · dinv (dst)`, sum at the target, add the bias", with a clip at zero between them. The
  program computes the edge lists, the degrees and the scale twice (once per layer); both copies are the same terms of
  the edge list. A gather reads the node `nodeOf word` (wrapped, clamped); a scatter-add sums over `Jof`.
-/
import proofs.«407811_j67078799229060_3_alg».proof.Proof.RefRead
import proofs.«407811_j67078799229060_3_alg».proof.Proof.RTerms
import proofs.«407811_j67078799229060_3_alg».proof.Proof.GcnIndex
import proofs.«407811_j67078799229060_3_alg».proof.Proof.GcnAlgebra
import proofs.«407811_j67078799229060_3_alg».proof.Proof.LibIndexedSum
import Idealize.ShloMosaic.Lib.ValueIdx
import Idealize.ShloMosaic.Lib.Pipeline.Value

set_option maxRecDepth 16384

noncomputable section

open scoped BigOperators

namespace Cert.ReferenceIdeal.Hand

open Cert.ReferenceIdeal Cert.ReferenceIdeal.Gen
open Idealize.ShloMosaic Idealize.ShloMosaic.TcCoe Idealize.SL.Sem Idealize.ShloMosaic.ValueIdx

section Stages

open Cert.ReferenceIdeal.ReadP Cert.Lib.IndexedSum

/-! The stages are read bottom-up, each at one index: the word lists and the degree, the wrapped index columns, the three
    gathers through them, the degree scale and the edge norm, layer 1's messages summed at the target and clipped, then
    layer 2 the same way over the hidden layer. -/

/-- Both copies of the source and target word lists and of the degree are the same terms of the edge list. -/
private theorem v4_eq (x1 : IVec S2x3200000 32) : val_main_v4 (F := Ideal) x1 = srcT x1 := rfl
private theorem v52_eq (x1 : IVec S2x3200000 32) : val_main_v52 (F := Ideal) x1 = srcT x1 := rfl
private theorem v7_eq (x1 : IVec S2x3200000 32) : val_main_v7 (F := Ideal) x1 = dstT x1 := rfl
private theorem v55_eq (x1 : IVec S2x3200000 32) : val_main_v55 (F := Ideal) x1 = dstT x1 := rfl
private theorem v11_eq (x1 : IVec S2x3200000 32) : val_main_v11 (F := Ideal) x1 = degT (F := Ideal) x1 := rfl
private theorem v59_eq (x1 : IVec S2x3200000 32) : val_main_v59 (F := Ideal) x1 = degT (F := Ideal) x1 := rfl

/-- The column of start indices reads the list at the row. -/
private theorem colA_apply (a : IVec S3300000 32) (e : Fin 3300000) : colA a (ix2 e (0 : Fin 1)) = a (ix1 e) := by
  unfold colA
  exact broadcastInDim_apply _ bcast_S3300000_S3300000x1_0 a (ix2 e (0 : Fin 1)) (ix1 e) (fun b => match b with
    | ⟨0, _⟩ => by show e.val = if (3300000 : Nat) = 1 then 0 else e.val; rw [if_neg (by decide)])

/-- The rows of the column whose word is node `n` are the edges landing on `n`. -/
private theorem rowsAt_colA (a : IVec S3300000 32) (n : Fin 100000) : rowsAt (colA a) n.val = Cert.Gcn.Jof a n := by
  unfold rowsAt Cert.Gcn.Jof
  exact Finset.filter_congr (fun e _ => by rw [colA_apply])

/-- The wrapped column: a negative word counts from the end. -/
private theorem wrapCol_apply (a z h : IVec S3300000 32) (hz : ∀ i, z i = 0#32) (hh : ∀ i, h i = 100000#32) (e : Fin 3300000) :
    colA (select (cmpi .slt a z) (addi a h) a) (ix2 e (0 : Fin 1)) = Cert.Gcn.wrapW (a (ix1 e)) := by
  rw [colA_apply]
  show Scalar.select (IntOp.cmpi .slt (a (ix1 e)) (z (ix1 e))) (IntOp.addi (a (ix1 e)) (h (ix1 e))) (a (ix1 e)) = _
  rw [hz, hh]
  rfl

/-- The degree scale at a node, from the degree. -/
private theorem dinvSel_apply (deg z z' : FVec Ideal S100000 .f32) (hz : ∀ i, z i = 0) (hz' : ∀ i, z' i = 0) (i : S100000.Idx) :
    select (cmpf .ogt deg z) (Host.rsqrt deg) z' i = Cert.Gcn.dinvE (deg i) := by
  show Scalar.select (Ideal.cmp .ogt (deg i) (z i)) (Ideal.rsqrt (deg i)) (z' i) = _
  rw [hz, hz']
  rfl

/-! ### The gathers through a wrapped column -/

/-- The clamped row a gather reads through the wrapped column is the node the word names. -/
private theorem wrapRow (a z h : IVec S3300000 32) (hz : ∀ i, z i = 0#32) (hh : ∀ i, h i = 100000#32) (e : Fin 3300000)
    (hlt : min (colA (select (cmpi .slt a z) (addi a h) a) (ix2 e (0 : Fin 1))).toInt.toNat (100000 - 1) < 100000) :
    (⟨min (colA (select (cmpi .slt a z) (addi a h) a) (ix2 e (0 : Fin 1))).toInt.toNat (100000 - 1), hlt⟩ : Fin 100000)
      = Cert.Gcn.srcN a e := by
  refine Fin.ext ?_
  show min (colA (select (cmpi .slt a z) (addi a h) a) (ix2 e (0 : Fin 1))).toInt.toNat (100000 - 1) = _
  rw [wrapCol_apply a z h hz hh e]
  rfl

/-- A flat table gathered through the wrapped column of a word list reads the node each word names. -/
private theorem gatherVec_wrap {α : Type} (tbl : S100000.Idx → α) (a z h : IVec S3300000 32) (hz : ∀ i, z i = 0#32)
    (hh : ∀ i, h i = 100000#32) (e : Fin 3300000) :
    Host.gather gather_S100000_S3300000x1_S3300000_n_0_n_n_0_1_1 tbl (colA (select (cmpi .slt a z) (addi a h) a)) (ix1 e)
      = tbl (ix1 (Cert.Gcn.srcN a e)) := by
  rw [gather_vec_apply (N := 100000) (E := 3300000) _ rfl rfl rfl rfl tbl _ e (by decide)]
  exact congrArg (fun i => tbl (ix1 i)) (wrapRow a z h hz hh e _)

/-- A table of 16-wide rows gathered through the wrapped column. -/
private theorem gatherRows16_wrap {α : Type} (tbl : S100000x16.Idx → α) (a z h : IVec S3300000 32) (hz : ∀ i, z i = 0#32)
    (hh : ∀ i, h i = 100000#32) (e : Fin 3300000) (k : Fin 16) :
    Host.gather gather_S100000x16_S3300000x1_S3300000x16_1_0_n_n_0_1_116 tbl (colA (select (cmpi .slt a z) (addi a h) a)) (ix2 e k)
      = tbl (ix2 (Cert.Gcn.srcN a e) k) := by
  rw [gather_rows_apply (N := 100000) (C := 16) (E := 3300000) _ rfl rfl rfl rfl rfl tbl _ e k (by decide)]
  exact congrArg (fun i => tbl (ix2 i k)) (wrapRow a z h hz hh e _)

/-- A table of 2-wide rows gathered through the wrapped column. -/
private theorem gatherRows2_wrap {α : Type} (tbl : S100000x2.Idx → α) (a z h : IVec S3300000 32) (hz : ∀ i, z i = 0#32)
    (hh : ∀ i, h i = 100000#32) (e : Fin 3300000) (f : Fin 2) :
    Host.gather gather_S100000x2_S3300000x1_S3300000x2_1_0_n_n_0_1_12 tbl (colA (select (cmpi .slt a z) (addi a h) a)) (ix2 e f)
      = tbl (ix2 (Cert.Gcn.srcN a e) f) := by
  rw [gather_rows_apply (N := 100000) (C := 2) (E := 3300000) _ rfl rfl rfl rfl rfl tbl _ e f (by decide)]
  exact congrArg (fun i => tbl (ix2 i f)) (wrapRow a z h hz hh e _)

/-! ### The degree scale and the edge norm, both copies -/

private theorem zeroF : FloatOps.ofBits (F := Ideal) .f32 0x00000000#32 = 0 := Ideal.ofBits_zero_f32

/-- The first copy of the degree scale at a node. -/
private theorem v15_at (x1 : IVec S2x3200000 32) (i : S100000.Idx) :
    val_main_v15 (F := Ideal) x1 i = Cert.Gcn.dinvE (degT (F := Ideal) x1 i) := by
  rw [← v11_eq]
  exact dinvSel_apply (val_main_v11 (F := Ideal) x1) (val_main_v12 (F := Ideal)) (val_main_call0_v1 (F := Ideal))
    (fun j => by rw [val_main_v12_apply, val_main_cst_1_apply]; exact zeroF)
    (fun j => by rw [val_main_call0_v1_apply, val_main_call0_v0_apply, val_main_cst_2_apply]; exact zeroF) i

/-- The second copy of the degree scale at a node. -/
private theorem v63_at (x1 : IVec S2x3200000 32) (i : S100000.Idx) :
    val_main_v63 (F := Ideal) x1 i = Cert.Gcn.dinvE (degT (F := Ideal) x1 i) := by
  rw [← v59_eq]
  exact dinvSel_apply (val_main_v59 (F := Ideal) x1) (val_main_v60 (F := Ideal)) (val_main_call2_v1 (F := Ideal))
    (fun j => by rw [val_main_v60_apply, val_main_cst_11_apply]; exact zeroF)
    (fun j => by rw [val_main_call2_v1_apply, val_main_call2_v0_apply, val_main_cst_12_apply]; exact zeroF) i

/-- Layer 1: the scale gathered at an edge's source word. -/
private theorem v22_at (x1 : IVec S2x3200000 32) (e : Fin 3300000) :
    val_main_v22 (F := Ideal) x1 (ix1 e)
      = Cert.Gcn.dinvE (degT (F := Ideal) x1 (ix1 (Cert.Gcn.srcN (srcT x1) e))) := by
  refine (gatherVec_wrap (val_main_v15 (F := Ideal) x1) (val_main_v4 (F := Ideal) x1) (val_main_v16 (F := Ideal))
    (val_main_v18 (F := Ideal)) (fun j => by rw [val_main_v16_apply, val_main_c_apply])
    (fun j => by rw [val_main_v18_apply, val_main_c_3_apply]) e).trans ?_
  rw [v15_at, v4_eq]

/-- Layer 1: the scale gathered at an edge's target word. -/
private theorem v29_at (x1 : IVec S2x3200000 32) (e : Fin 3300000) :
    val_main_v29 (F := Ideal) x1 (ix1 e)
      = Cert.Gcn.dinvE (degT (F := Ideal) x1 (ix1 (Cert.Gcn.srcN (dstT x1) e))) := by
  refine (gatherVec_wrap (val_main_v15 (F := Ideal) x1) (val_main_v7 (F := Ideal) x1) (val_main_v23 (F := Ideal))
    (val_main_v25 (F := Ideal)) (fun j => by rw [val_main_v23_apply, val_main_c_4_apply])
    (fun j => by rw [val_main_v25_apply, val_main_c_5_apply]) e).trans ?_
  rw [v15_at, v7_eq]

/-- Layer 1: the norm of an edge. -/
private theorem v30_at (x1 : IVec S2x3200000 32) (e : Fin 3300000) :
    val_main_v30 (F := Ideal) x1 (ix1 e)
      = Cert.Gcn.dinvE (degT (F := Ideal) x1 (ix1 (Cert.Gcn.srcN (srcT x1) e)))
        * Cert.Gcn.dinvE (degT (F := Ideal) x1 (ix1 (Cert.Gcn.srcN (dstT x1) e))) := by
  rw [val_main_v30_apply, v22_at, v29_at]
  rfl

/-- Layer 2: the scale gathered at an edge's source word. -/
private theorem v70_at (x1 : IVec S2x3200000 32) (e : Fin 3300000) :
    val_main_v70 (F := Ideal) x1 (ix1 e)
      = Cert.Gcn.dinvE (degT (F := Ideal) x1 (ix1 (Cert.Gcn.srcN (srcT x1) e))) := by
  refine (gatherVec_wrap (val_main_v63 (F := Ideal) x1) (val_main_v52 (F := Ideal) x1) (val_main_v64 (F := Ideal))
    (val_main_v66 (F := Ideal)) (fun j => by rw [val_main_v64_apply, val_main_c_13_apply])
    (fun j => by rw [val_main_v66_apply, val_main_c_14_apply]) e).trans ?_
  rw [v63_at, v52_eq]

/-- Layer 2: the scale gathered at an edge's target word. -/
private theorem v77_at (x1 : IVec S2x3200000 32) (e : Fin 3300000) :
    val_main_v77 (F := Ideal) x1 (ix1 e)
      = Cert.Gcn.dinvE (degT (F := Ideal) x1 (ix1 (Cert.Gcn.srcN (dstT x1) e))) := by
  refine (gatherVec_wrap (val_main_v63 (F := Ideal) x1) (val_main_v55 (F := Ideal) x1) (val_main_v71 (F := Ideal))
    (val_main_v73 (F := Ideal)) (fun j => by rw [val_main_v71_apply, val_main_c_15_apply])
    (fun j => by rw [val_main_v73_apply, val_main_c_16_apply]) e).trans ?_
  rw [v63_at, v55_eq]

/-- Layer 2: the norm of an edge. -/
private theorem v78_at (x1 : IVec S2x3200000 32) (e : Fin 3300000) :
    val_main_v78 (F := Ideal) x1 (ix1 e)
      = Cert.Gcn.dinvE (degT (F := Ideal) x1 (ix1 (Cert.Gcn.srcN (srcT x1) e)))
        * Cert.Gcn.dinvE (degT (F := Ideal) x1 (ix1 (Cert.Gcn.srcN (dstT x1) e))) := by
  rw [val_main_v78_apply, v70_at, v77_at]
  rfl

/-! ### Layer 1 -/

/-- The input transform at a node: the one input feature times the weight row. -/
private theorem v0_at (x0 : FVec Ideal S100000x1 .f32) (x2 : FVec Ideal S1x16 .f32) (s : Fin 100000) (k : Fin 16) :
    val_main_v0 (F := Ideal) x0 x2 (ix2 s k) = x0 (ix2 s (0 : Fin 1)) * x2 (ix2 (0 : Fin 1) k) := by
  rw [val_main_v0_apply, Fin.sum_univ_one]
  have hl : lidx_main_v0 (ix2 s k) (0 : Fin 1) = ix2 s (0 : Fin 1) :=
    funext fun a => match a with | ⟨0, _⟩ => rfl | ⟨1, _⟩ => rfl
  have hr : ridx_main_v0 (ix2 s k) (0 : Fin 1) = ix2 (0 : Fin 1) k :=
    funext fun a => match a with | ⟨0, _⟩ => rfl | ⟨1, _⟩ => rfl
  rw [hl, hr]

/-- The transformed row gathered at an edge's source word. -/
private theorem v37_at (x0 : FVec Ideal S100000x1 .f32) (x1 : IVec S2x3200000 32) (x2 : FVec Ideal S1x16 .f32)
    (e : Fin 3300000) (k : Fin 16) :
    val_main_v37 (F := Ideal) x0 x1 x2 (ix2 e k)
      = x0 (ix2 (Cert.Gcn.srcN (srcT x1) e) (0 : Fin 1)) * x2 (ix2 (0 : Fin 1) k) := by
  refine (gatherRows16_wrap (val_main_v0 (F := Ideal) x0 x2) (val_main_v4 (F := Ideal) x1) (val_main_v31 (F := Ideal))
    (val_main_v33 (F := Ideal)) (fun j => by rw [val_main_v31_apply, val_main_c_6_apply])
    (fun j => by rw [val_main_v33_apply, val_main_c_7_apply]) e k).trans ?_
  rw [v0_at, v4_eq]

/-- The norm broadcast along the 16 features. -/
private theorem v39_at (x1 : IVec S2x3200000 32) (e : Fin 3300000) (k : Fin 16) :
    val_main_v39 (F := Ideal) x1 (ix2 e k) = val_main_v30 (F := Ideal) x1 (ix1 e) := by
  rw [val_main_v39_apply, val_main_v38_apply]
  exact congrArg _ (funext fun a => match a with | ⟨0, _⟩ => rfl)

/-- Layer 1's sum of messages at a node. -/
private theorem v43_at (x0 : FVec Ideal S100000x1 .f32) (x1 : IVec S2x3200000 32) (x2 : FVec Ideal S1x16 .f32)
    (p : Fin 100000) (k : Fin 16) :
    val_main_v43 (F := Ideal) x0 x1 x2 (ix2 p k)
      = 0 + ∑ e ∈ Cert.Gcn.Jof (dstT x1) p,
          x0 (ix2 (Cert.Gcn.srcN (srcT x1) e) (0 : Fin 1)) * x2 (ix2 (0 : Fin 1) k)
            * (Cert.Gcn.dinvE (degT (F := Ideal) x1 (ix1 (Cert.Gcn.srcN (srcT x1) e)))
              * Cert.Gcn.dinvE (degT (F := Ideal) x1 (ix1 (Cert.Gcn.srcN (dstT x1) e)))) := by
  refine (scatterAdd_rows_apply (N := 100000) (C := 16) (E := 3300000) (w := 32) (φ := .f32)
    scatter_S100000x16_S3300000x1_S3300000x16_1_0_0_1 rfl rfl rfl rfl (val_main_v41 (F := Ideal))
    (colA (val_main_v7 (F := Ideal) x1)) (val_main_v40 (F := Ideal) x0 x1 x2) p k).trans ?_
  rw [rowsAt_colA, v7_eq, val_main_v41_apply, val_main_cst_8_apply, zeroF]
  refine congrArg _ (Finset.sum_congr rfl fun e _ => ?_)
  rw [val_main_v40_apply, v37_at, v39_at, v30_at]
  rfl

/-- The hidden layer at a node: bias added, clipped at zero. -/
private theorem v47_at (x0 : FVec Ideal S100000x1 .f32) (x1 : IVec S2x3200000 32) (x2 : FVec Ideal S1x16 .f32)
    (x3 : FVec Ideal S16 .f32) (p : Fin 100000) (k : Fin 16) :
    val_main_v47 (F := Ideal) x0 x1 x2 x3 (ix2 p k)
      = Cert.Gcn.hidR (Cert.Gcn.Jof (dstT x1)) (Cert.Gcn.srcN (srcT x1)) (Cert.Gcn.srcN (dstT x1))
          (fun i => Cert.Gcn.dinvE (degT (F := Ideal) x1 (ix1 i))) (fun i => x0 (ix2 i (0 : Fin 1)))
          (fun k => x2 (ix2 (0 : Fin 1) k)) (fun k => x3 (ix1 k)) p k := by
  rw [val_main_v47_apply, val_main_v46_apply, v43_at, val_main_v45_apply, val_main_v44_apply,
    val_main_call1_v0_apply, val_main_call1_cst_apply, zeroF]
  have hi : idx_main_v44 (idx_main_v45 (ix2 p k)) = ix1 k := funext fun a => match a with | ⟨0, _⟩ => rfl
  rw [hi]
  rfl

/-! ### Layer 2 -/

/-- The hidden layer times the second weight matrix, at a node. -/
private theorem v48_at (x0 : FVec Ideal S100000x1 .f32) (x1 : IVec S2x3200000 32) (x2 : FVec Ideal S1x16 .f32)
    (x3 : FVec Ideal S16 .f32) (x4 : FVec Ideal S16x2 .f32) (s : Fin 100000) (f : Fin 2) :
    val_main_v48 (F := Ideal) x0 x1 x2 x3 x4 (ix2 s f)
      = ∑ k : Fin 16, Cert.Gcn.hidR (Cert.Gcn.Jof (dstT x1)) (Cert.Gcn.srcN (srcT x1)) (Cert.Gcn.srcN (dstT x1))
          (fun i => Cert.Gcn.dinvE (degT (F := Ideal) x1 (ix1 i))) (fun i => x0 (ix2 i (0 : Fin 1)))
          (fun k => x2 (ix2 (0 : Fin 1) k)) (fun k => x3 (ix1 k)) s k * x4 (ix2 k f) := by
  rw [val_main_v48_apply]
  refine Finset.sum_congr rfl fun k _ => ?_
  have hl : lidx_main_v48 (ix2 s f) k = ix2 s k :=
    funext fun a => match a with | ⟨0, _⟩ => rfl | ⟨1, _⟩ => rfl
  have hr : ridx_main_v48 (ix2 s f) k = ix2 k f :=
    funext fun a => match a with | ⟨0, _⟩ => rfl | ⟨1, _⟩ => rfl
  rw [hl, hr, v47_at]

/-- The second transform's row gathered at an edge's source word. -/
private theorem v85_at (x0 : FVec Ideal S100000x1 .f32) (x1 : IVec S2x3200000 32) (x2 : FVec Ideal S1x16 .f32)
    (x3 : FVec Ideal S16 .f32) (x4 : FVec Ideal S16x2 .f32) (e : Fin 3300000) (f : Fin 2) :
    val_main_v85 (F := Ideal) x0 x1 x2 x3 x4 (ix2 e f)
      = ∑ k : Fin 16, Cert.Gcn.hidR (Cert.Gcn.Jof (dstT x1)) (Cert.Gcn.srcN (srcT x1)) (Cert.Gcn.srcN (dstT x1))
          (fun i => Cert.Gcn.dinvE (degT (F := Ideal) x1 (ix1 i))) (fun i => x0 (ix2 i (0 : Fin 1)))
          (fun k => x2 (ix2 (0 : Fin 1) k)) (fun k => x3 (ix1 k)) (Cert.Gcn.srcN (srcT x1) e) k * x4 (ix2 k f) := by
  refine (gatherRows2_wrap (val_main_v48 (F := Ideal) x0 x1 x2 x3 x4) (val_main_v52 (F := Ideal) x1)
    (val_main_v79 (F := Ideal)) (val_main_v81 (F := Ideal)) (fun j => by rw [val_main_v79_apply, val_main_c_17_apply])
    (fun j => by rw [val_main_v81_apply, val_main_c_18_apply]) e f).trans ?_
  rw [v48_at, v52_eq]

/-- The norm broadcast along the 2 classes. -/
private theorem v87_at (x1 : IVec S2x3200000 32) (e : Fin 3300000) (f : Fin 2) :
    val_main_v87 (F := Ideal) x1 (ix2 e f) = val_main_v78 (F := Ideal) x1 (ix1 e) := by
  rw [val_main_v87_apply, val_main_v86_apply]
  exact congrArg _ (funext fun a => match a with | ⟨0, _⟩ => rfl)

/-- Layer 2's sum of messages at a node. -/
private theorem v91_at (x0 : FVec Ideal S100000x1 .f32) (x1 : IVec S2x3200000 32) (x2 : FVec Ideal S1x16 .f32)
    (x3 : FVec Ideal S16 .f32) (x4 : FVec Ideal S16x2 .f32) (n : Fin 100000) (f : Fin 2) :
    val_main_v91 (F := Ideal) x0 x1 x2 x3 x4 (ix2 n f)
      = 0 + ∑ e ∈ Cert.Gcn.Jof (dstT x1) n,
          (∑ k : Fin 16, Cert.Gcn.hidR (Cert.Gcn.Jof (dstT x1)) (Cert.Gcn.srcN (srcT x1)) (Cert.Gcn.srcN (dstT x1))
          (fun i => Cert.Gcn.dinvE (degT (F := Ideal) x1 (ix1 i))) (fun i => x0 (ix2 i (0 : Fin 1)))
          (fun k => x2 (ix2 (0 : Fin 1) k)) (fun k => x3 (ix1 k)) (Cert.Gcn.srcN (srcT x1) e) k * x4 (ix2 k f))
            * (Cert.Gcn.dinvE (degT (F := Ideal) x1 (ix1 (Cert.Gcn.srcN (srcT x1) e)))
              * Cert.Gcn.dinvE (degT (F := Ideal) x1 (ix1 (Cert.Gcn.srcN (dstT x1) e)))) := by
  refine (scatterAdd_rows_apply (N := 100000) (C := 2) (E := 3300000) (w := 32) (φ := .f32)
    scatter_S100000x2_S3300000x1_S3300000x2_1_0_0_1 rfl rfl rfl rfl (val_main_v89 (F := Ideal))
    (colA (val_main_v55 (F := Ideal) x1)) (val_main_v88 (F := Ideal) x0 x1 x2 x3 x4) n f).trans ?_
  rw [rowsAt_colA, v55_eq, val_main_v89_apply, val_main_cst_19_apply, zeroF]
  refine congrArg _ (Finset.sum_congr rfl fun e _ => ?_)
  rw [val_main_v88_apply, v85_at, v87_at, v78_at]
  rfl

/-- The output bias at an entry. -/
private theorem v93_at (x5 : FVec Ideal S2 .f32) (n : Fin 100000) (f : Fin 2) :
    val_main_v93 (F := Ideal) x5 (ix2 n f) = x5 (ix1 f) := by
  rw [val_main_v93_apply, val_main_v92_apply]
  exact congrArg _ (funext fun a => match a with | ⟨0, _⟩ => rfl)

end Stages

/-- The reference's result, entry by entry, in the vocabulary of the graph algebra. -/
theorem ref_value (m : (ℓ : Loc nD τ sig) → Buf (Elt Ideal) ℓ) (c : Dev nD) (n : Fin 100000) (f : Fin 2) :
    (Cert.ReferenceIdeal.ValueP.res_out0 (F := Ideal) m c : FVec Ideal S100000x2 .f32) (ix2 n f)
      = Cert.Gcn.outR (Cert.Gcn.Jof (dstT (m ((c.tc : Thread nD τ).loc main_arg1))))
          (Cert.Gcn.srcN (srcT (m ((c.tc : Thread nD τ).loc main_arg1))))
          (Cert.Gcn.srcN (dstT (m ((c.tc : Thread nD τ).loc main_arg1))))
          (fun i => Cert.Gcn.dinvE (degT (F := Ideal) (m ((c.tc : Thread nD τ).loc main_arg1)) (ix1 i)))
          (fun i => (m ((c.tc : Thread nD τ).loc main_arg0) : FVec Ideal S100000x1 .f32) (ix2 i (0 : Fin 1)))
          (fun k => (m ((c.tc : Thread nD τ).loc main_arg2) : FVec Ideal S1x16 .f32) (ix2 (0 : Fin 1) k))
          (fun k => (m ((c.tc : Thread nD τ).loc main_arg3) : FVec Ideal S16 .f32) (ix1 k))
          (fun k f => (m ((c.tc : Thread nD τ).loc main_arg4) : FVec Ideal S16x2 .f32) (ix2 k f))
          (fun f => (m ((c.tc : Thread nD τ).loc main_arg5) : FVec Ideal S2 .f32) (ix1 f)) n f := by
  show (Cert.ReferenceIdeal.ValueP.res_main_v94 (F := Ideal) m c : FVec Ideal S100000x2 .f32) (ix2 n f) = _
  rw [ReadP.val_main_v94_eq, ReadP.val_main_v94_apply, v91_at, v93_at]
  rfl

end Cert.ReferenceIdeal.Hand

end
-- ==== Proof.PreFacts.lean ====
/-
  What the precondition says, decoded: every entry of the five float inputs is a real number, and every word of the edge
  list's source row names a node (`0 ≤ word < 100000`). The printed predicate is a conjunction of `all`-reductions of
  entrywise tests; each conjunct is `1`, so each test holds at every entry; `|x| < +∞` on the extended reals leaves only
  the reals.
-/
import proofs.«407811_j67078799229060_3_alg».proof.Pre_finite_inputs
import proofs.«407811_j67078799229060_3_alg».proof.Proof.Gen.Pre_finite_inputs
import proofs.«407811_j67078799229060_3_alg».proof.Proof.GcnIndex
import Idealize.ShloMosaic.Lib.ValueIdx
import Idealize.ShloMosaic.Lib.ReduceAll
import Idealize.ShloMosaic.Lib.Pipeline.Value
import Idealize.ShloMosaic.Lib.StableHlo.Predicate

noncomputable section

namespace Cert.Pre_finite_inputs.Hand

open Cert.Pre_finite_inputs Cert.Pre_finite_inputs.Gen Idealize.ShloMosaic Idealize.ShloMosaic.ValueIdx

/-- The scalar shape has one index. -/
private local instance subsingleton_S_Idx : Subsingleton S_.Idx := ⟨fun a b => funext fun d => d.elim0⟩

/-- The word `0x7F800000` is `+∞`. -/
private theorem inf_word : Ideal.ofBits .f32 0x7F800000#32 = (⊤ : EReal) := by
  simp [Ideal.ofBits, Ideal.ieee]

/-- An extended real whose absolute value `max a (-a)` is below `+∞` is a real number: at `⊥` and at `⊤` the absolute
    value is `⊤`. -/
private theorem real_of_abs_lt (a : EReal)
    (h : Ideal.cmp .olt (max a (-a)) (Ideal.ofBits .f32 0x7F800000#32) = 1#1) : ∃ r : ℝ, a = (r : EReal) := by
  rw [inf_word] at h
  have h' : BitVec.ofBool (decide (max a (-a) < (⊤ : EReal))) = 1#1 := h
  rw [StableHlo.Predicate.ofBool_eq_one_iff] at h'
  have hlt : max a (-a) < (⊤ : EReal) := of_decide_eq_true h'
  induction a using EReal.rec with
  | bot => simp at hlt
  | top => simp at hlt
  | coe r => exact ⟨r, rfl⟩

/-- One `all(|x| < +∞)` conjunct that is `1` says every entry of `x` is a real number. -/
private theorem finite_of_all {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
          (cmpf .olt (Host.absf x) (broadcastInDim s ![] hb (constant S_ .f32 0x7F800000#32)))
          (constantI S_ 1 1#1) hr hu ix0 = 1#1) (i : s.Idx) : ∃ r : ℝ, (x i : EReal) = (r : EReal) :=
  real_of_abs_lt (x i) (Host.reduce_andi_all _ _ hr hu ix0 e i)

/-- The edge list's row 0, sliced out and flattened, read at edge `e`, is the list's entry `(0, e)`. -/
private theorem row0_read (ei : IVec S2x3200000 32) (hs : S2x3200000.Slices ![0, 0] S1x3200000)
    (hc : S1x3200000.ShapeCasts S3200000) (e : Fin 3200000) :
    shapeCast S3200000 (extractStridedSlice S1x3200000 ![0, 0] ei hs) hc (ix1 e) = ei (ix2 (0 : Fin 2) e) := by
  refine (shapeCast_apply _ hc (ix1 e) (ix2 (0 : Fin 1) e) ?_).trans ?_
  · rewrite [Shape.rowMajor_val_two, Shape.rowMajor_val_one]
    show 0 * 3200000 + e.val = e.val
    omega
  · exact extractStridedSlice_apply ![0, 0] ei hs (ix2 (0 : Fin 1) e) (ix2 (0 : Fin 2) e) (fun a => match a with
      | ⟨0, _⟩ => by show 0 = 0 + 0; rfl
      | ⟨1, _⟩ => by show e.val = 0 + e.val; omega)

/-- The `all(0 ≤ row0 ∧ row0 < 100000)` conjunct that is `1` says every word of row 0 names a node. -/
private theorem range_of_all (ei : IVec S2x3200000 32) (hs : S2x3200000.Slices ![0, 0] S1x3200000)
    (hc : S1x3200000.ShapeCasts S3200000) (hb : S_.BroadcastsInDim S3200000 (![] : Fin 0 → Fin S3200000.rank))
    (hr : S3200000.ReducesTo [0] S_) (hu : 0 < S_.numel)
    (e6 : Host.reduce IntOp.andi
          (andi
            (cmpi .sge (shapeCast S3200000 (extractStridedSlice S1x3200000 ![0, 0] ei hs) hc)
              (broadcastInDim S3200000 ![] hb (constantI S_ 32 0#32)))
            (cmpi .slt (shapeCast S3200000 (extractStridedSlice S1x3200000 ![0, 0] ei hs) hc)
              (broadcastInDim S3200000 ![] hb (constantI S_ 32 100000#32))))
          (constantI S_ 1 1#1) hr hu ix0 = 1#1) (e : Fin 3200000) :
    Cert.Gcn.InRange (ei (ix2 (0 : Fin 2) e)) := by
  have h1 := Host.reduce_andi_all _ _ hr hu ix0 e6 (ix1 e)
  have h2 : IntOp.andi
      (IntOp.cmpi .sge (shapeCast S3200000 (extractStridedSlice S1x3200000 ![0, 0] ei hs) hc (ix1 e)) 0#32)
      (IntOp.cmpi .slt (shapeCast S3200000 (extractStridedSlice S1x3200000 ![0, 0] ei hs) hc (ix1 e)) 100000#32)
      = 1#1 := h1
  rw [row0_read, IntOp.andi_eq_one, IntOp.cmpi_sge, IntOp.cmpi_slt] at h2
  have c0 : (0#32 : BitVec 32).toInt = 0 := by decide
  have c1 : (100000#32 : BitVec 32).toInt = 100000 := by decide
  rw [c0, c1] at h2
  exact h2

/-- The precondition's content. -/
theorem facts_of_pre (x : FVec Ideal S100000x1 .f32) (ei : IVec S2x3200000 32) (w1 : FVec Ideal S1x16 .f32)
    (b1 : FVec Ideal S16 .f32) (w2 : FVec Ideal S16x2 .f32) (b2 : FVec Ideal S2 .f32)
    (h : Cert.Pre_finite_inputs.fn (F := Ideal) x ei w1 b1 w2 b2 = (fun _ => 1#1)) :
    (∀ i, ∃ r : ℝ, (x i : EReal) = (r : EReal)) ∧ (∀ i, ∃ r : ℝ, (w1 i : EReal) = (r : EReal))
      ∧ (∀ i, ∃ r : ℝ, (b1 i : EReal) = (r : EReal)) ∧ (∀ i, ∃ r : ℝ, (w2 i : EReal) = (r : EReal))
      ∧ (∀ i, ∃ r : ℝ, (b2 i : EReal) = (r : EReal))
      ∧ (∀ e : Fin 3200000, Cert.Gcn.InRange (ei (ix2 (0 : Fin 2) e))) := by
  have e : Cert.Pre_finite_inputs.fn (F := Ideal) x ei w1 b1 w2 b2 ix0 = 1#1 := congrFun h ix0
  dsimp only [Cert.Pre_finite_inputs.fn, Cert.Pre_finite_inputs.fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨finite_of_all _ _ _ x e1, finite_of_all _ _ _ w1 e2, finite_of_all _ _ _ b1 e3, finite_of_all _ _ _ w2 e4,
    finite_of_all _ _ _ b2 e5, range_of_all ei _ _ _ _ _ e6⟩

end Cert.Pre_finite_inputs.Hand

end
-- ==== Proof.LibReshape.lean ====
/-
  General lemmas: a reshape between a flat array and a grid or a column, read at an index.

  A reshape keeps every element at its row-major position: the flat position `i` of a `T = A · B` array is the grid entry
  `(i / B, i % B)`, and the flat position `n` is the column entry `(n, 0)`. Stated for every `A B N` and element type.
-/
import Idealize.ShloMosaic.PureOps.ShapeOps
import Idealize.ShloMosaic.Lib.ValueIdx
import Idealize.ShloMosaic.Lib.Pipeline.Value

noncomputable section

namespace Cert.Lib.Reshape

open Idealize.ShloMosaic Idealize.ShloMosaic.ValueIdx

/-- A grid laid out flat: flat position `i` reads grid entry `(i / B, i % B)`. -/
theorem grid_to_flat {α : Type} {A B T : Nat} (hT : T = A * B) (hB : 0 < B)
    (h : (⟨2, ![A, B]⟩ : Shape).ShapeCasts ⟨1, ![T]⟩) (y : (⟨2, ![A, B]⟩ : Shape).Idx → α) (i : Fin T) :
    shapeCast ⟨1, ![T]⟩ y h (ix1 i)
      = y (ix2 ⟨i.val / B, (Nat.div_lt_iff_lt_mul hB).2 (by have := i.isLt; omega)⟩ ⟨i.val % B, Nat.mod_lt _ hB⟩) := by
  refine shapeCast_apply y h (ix1 i) _ ?_
  rewrite [Shape.rowMajor_val_two, Shape.rowMajor_val_one]
  show i.val / B * B + i.val % B = i.val
  exact Nat.div_add_mod' i.val B

/-- A flat array laid out as a grid: grid entry `(i / B, i % B)` reads flat position `i`. -/
theorem flat_to_grid {α : Type} {A B T : Nat} (hT : T = A * B) (hB : 0 < B)
    (h : (⟨1, ![T]⟩ : Shape).ShapeCasts ⟨2, ![A, B]⟩) (x : (⟨1, ![T]⟩ : Shape).Idx → α) (i : Fin T) :
    shapeCast ⟨2, ![A, B]⟩ x h
        (ix2 ⟨i.val / B, (Nat.div_lt_iff_lt_mul hB).2 (by have := i.isLt; omega)⟩ ⟨i.val % B, Nat.mod_lt _ hB⟩)
      = x (ix1 i) := by
  refine shapeCast_apply x h _ (ix1 i) ?_
  rewrite [Shape.rowMajor_val_two, Shape.rowMajor_val_one]
  show i.val = i.val / B * B + i.val % B
  exact (Nat.div_add_mod' i.val B).symm

/-- A flat array as a column: entry `(n, 0)` reads flat position `n`. -/
theorem flat_to_col {α : Type} {N : Nat} (h : (⟨1, ![N]⟩ : Shape).ShapeCasts ⟨2, ![N, 1]⟩)
    (x : (⟨1, ![N]⟩ : Shape).Idx → α) (n : Fin N) :
    shapeCast ⟨2, ![N, 1]⟩ x h (ix2 n (0 : Fin 1)) = x (ix1 n) := by
  refine shapeCast_apply x h (ix2 n (0 : Fin 1)) (ix1 n) ?_
  rewrite [Shape.rowMajor_val_two, Shape.rowMajor_val_one]
  show n.val = n.val * 1 + 0
  omega

/-- A column laid out flat: flat position `n` reads entry `(n, 0)`. -/
theorem col_to_flat {α : Type} {N : Nat} (h : (⟨2, ![N, 1]⟩ : Shape).ShapeCasts ⟨1, ![N]⟩)
    (y : (⟨2, ![N, 1]⟩ : Shape).Idx → α) (n : Fin N) :
    shapeCast ⟨1, ![N]⟩ y h (ix1 n) = y (ix2 n (0 : Fin 1)) := by
  refine shapeCast_apply y h (ix1 n) (ix2 n (0 : Fin 1)) ?_
  rewrite [Shape.rowMajor_val_two, Shape.rowMajor_val_one]
  show n.val * 1 + 0 = n.val
  omega

end Cert.Lib.Reshape

end
-- ==== Proof.lean ====
/-
  The certificate of the two-layer graph convolution: the kernel program (three launches with host gathers and
  scatter-adds between them) against the reference (two rounds of transform, per-edge norm, scatter-add, bias).

  Both programs compute the in-degree `deg` (self-loops included) and the scale `dinv = 1/√deg` (zero where the degree
  is not positive) from the same edge list. The reference scales every edge's message by `dinv (src) · dinv (dst)` and
  sums at the target; the kernel scales each node's feature by `dinv` before the sum and the sum by `dinv` after it, and
  in the first layer (one input feature) also moves the weight row out of the sum. The two are equal by distributivity
  of multiplication over a finite sum, which on the extended reals needs every term finite: the float inputs are finite
  by the precondition and `dinv` is a real number whatever the degree. The kernel reads its tables with a take that FILLS
  where an index names no node, the reference with a clamping gather, so the statement also assumes that every word of
  the edge list's source row names a node (outside that the reference itself indexes out of range); a target word naming
  no node is dropped by both programs' scatter-adds alike and needs no assumption.

  The frames of the two kernel programs are the generated ones; the reference's frame is its run with the result
  dropped; the idealization rewrote nothing, so `preserves` is trivial. For the value claim the kernel's run is the
  launch theorem called once more with the result buffer read (`GenP.run_result`), its result read through the launches
  and host stretches entry by entry (`kernel_value`), the reference's result likewise (`ref_value`), and the two entry
  formulas are one number (`Cert.Gcn.outK_eq_outR`).
-/
import proofs.«407811_j67078799229060_3_alg».proof.Defs
import proofs.«407811_j67078799229060_3_alg».proof.Proof.Gen.Kernel
import proofs.«407811_j67078799229060_3_alg».proof.Proof.Gen.Kernel.Frame
import proofs.«407811_j67078799229060_3_alg».proof.Proof.Gen.KernelIdeal
import proofs.«407811_j67078799229060_3_alg».proof.Proof.Gen.KernelIdeal.Frame
import proofs.«407811_j67078799229060_3_alg».proof.Proof.Gen.ReferenceIdeal
import proofs.«407811_j67078799229060_3_alg».proof.Proof.Gen.Pre_finite_inputs
import proofs.«407811_j67078799229060_3_alg».proof.Proof.RefRead
import proofs.«407811_j67078799229060_3_alg».proof.Proof.KRun
import proofs.«407811_j67078799229060_3_alg».proof.Proof.KValue
import proofs.«407811_j67078799229060_3_alg».proof.Proof.RefValue
import proofs.«407811_j67078799229060_3_alg».proof.Proof.PreFacts
import proofs.«407811_j67078799229060_3_alg».proof.Proof.GcnAlgebra
import proofs.«407811_j67078799229060_3_alg».proof.Proof.GcnIndex
import proofs.«407811_j67078799229060_3_alg».proof.Proof.LibReshape
import Idealize.ShloMosaic.Lib.ValueIdx
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The two programs' edge lists and degrees are the same functions of the edge list -/

theorem srcT_eq (ei : IVec Cert.KernelIdeal.S2x3200000 32) :
    Cert.ReferenceIdeal.Hand.srcT ei = Cert.KernelIdeal.Hand.srcT ei := rfl
theorem dstT_eq (ei : IVec Cert.KernelIdeal.S2x3200000 32) :
    Cert.ReferenceIdeal.Hand.dstT ei = Cert.KernelIdeal.Hand.dstT ei := rfl
theorem degT_eq (ei : IVec Cert.KernelIdeal.S2x3200000 32) :
    Cert.ReferenceIdeal.Hand.degT (F := Ideal) ei = Cert.KernelIdeal.Hand.degT (F := Ideal) ei := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- At the ideal instance, from memories agreeing on the arguments, the kernel program's result array and the
    reference's are equal entry by entry. -/
theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v29),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  obtain ⟨fx, fw1, fb1, fw2, fb2, hsrc⟩ := Cert.Pre_finite_inputs.Hand.facts_of_pre _ _ _ _ _ _ (hpre c)
  funext j
  obtain ⟨n, f, rfl⟩ : ∃ (n : Fin 100000) (f : Fin 2), j = ix2 n f := ⟨j 0, j 1, eq_ix2 j⟩
  refine (Cert.ReferenceIdeal.Hand.ref_value m' c n f).trans ?_
  refine Eq.trans ?_ (Cert.KernelIdeal.Hand.kernel_value m ρ c hsrc n f).symm
  rw [h0, h1, h2, h3, h4, h5, srcT_eq, dstT_eq, degT_eq]
  refine (Cert.Gcn.outK_eq_outR _ _ _ _ _ _ _ _ _ (fun n e he => Cert.Gcn.srcN_of_mem_Jof he)
    (fun i => Cert.Gcn.dinvE_real _) (fun i => fx _) (fun k => fw1 _) (fun k => fb1 _) (fun k f => fw2 _) (fun f => fb2 _) n f).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
